-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S1024x256 : Shape := ⟨2, ![1024, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S4096x1024 .f32) (main_arg1 : IVec S4096 32) (main_arg2 : FVec F S1024x256 .f32) (main_arg3 : FVec F S1024x256 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x256 .f32 := Host.absf main_arg2
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024x256 .f32 := Host.absf main_arg3
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  main_v13
-- ==== Kernel.lean ====
abbrev S4096x1024 : Shape := ⟨2, ![4096, 1024]⟩
abbrev S4096 : Shape := ⟨1, ![4096]⟩
abbrev S1024x256 : Shape := ⟨2, ![1024, 256]⟩
abbrev S1024x512 : Shape := ⟨2, ![1024, 512]⟩
abbrev S4096x512 : Shape := ⟨2, ![4096, 512]⟩
abbrev S512x1024 : Shape := ⟨2, ![512, 1024]⟩
abbrev S512x512 : Shape := ⟨2, ![512, 512]⟩
abbrev S4096x256 : Shape := ⟨2, ![4096, 256]⟩
abbrev S4096x1 : Shape := ⟨2, ![4096, 1]⟩
abbrev S4096x32000 : Shape := ⟨2, ![4096, 32000]⟩
abbrev S1024x1280 : Shape := ⟨2, ![1024, 1280]⟩
abbrev S512x256 : Shape := ⟨2, ![512, 256]⟩
abbrev S256x512 : Shape := ⟨2, ![256, 512]⟩
abbrev S1024x1 : Shape := ⟨2, ![1024, 1]⟩
abbrev S1x512 : Shape := ⟨2, ![1, 512]⟩
abbrev S512x1 : Shape := ⟨2, ![512, 1]⟩
abbrev S1x1280 : Shape := ⟨2, ![1, 1280]⟩
abbrev S512x1280 : Shape := ⟨2, ![512, 1280]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S1024x256, .f32⟩
  | .hbm, ⟨3, _⟩ => ⟨S1024x256, .f32⟩
  | .hbm, ⟨4, _⟩ => ⟨S1024x512, .f32⟩
  | .hbm, ⟨5, _⟩ => ⟨S4096x512, .bf16⟩
  | .hbm, ⟨6, _⟩ => ⟨S4096x256, .bf16⟩
  | .hbm, ⟨7, _⟩ => ⟨S4096x256, .bf16⟩
  | .hbm, ⟨8, _⟩ => ⟨S4096x1, .i32⟩
  | .hbm, ⟨9, _⟩ => ⟨S4096x32000, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S512x512, .bf16⟩
  | .local _ .vmem, ⟨4, _⟩ => ⟨S512x512, .bf16⟩
  | .local _ .vmem, ⟨5, _⟩ => ⟨S4096x256, .bf16⟩
  | .local _ .vmem, ⟨6, _⟩ => ⟨S4096x256, .bf16⟩
  | .local _ .vmem, ⟨7, _⟩ => ⟨S4096x1, .i32⟩
  | .local _ .vmem, ⟨8, _⟩ => ⟨S1024x1280, .f32⟩
  | .local _ .vmem, ⟨9, _⟩ => ⟨S1024x1280, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![25, 4, 8], ![false, false, false]⟩

def k1_cond2 (i : grid1.Coords) : BitVec 1 :=
  let arg2 : BitVec 32 := BitVec.ofNat 32 (i 2).val
  let c512_i32 : BitVec 32 := 512#32
  let v3 : BitVec 32 := Scalar.muli arg2 c512_i32
  let arg1 : BitVec 32 := BitVec.ofNat 32 (i 1).val
  let c1024_i32 : BitVec 32 := 1024#32
  let v4 : BitVec 32 := Scalar.muli arg1 c1024_i32
  let c1023_i32 : BitVec 32 := 1023#32
  let v5 : BitVec 32 := Scalar.addi v4 c1023_i32
  let v6 : BitVec 1 := Scalar.cmpi .sle v3 v5
  let v7 : BitVec 32 := Scalar.extui v6
  let c0_i32_1 : BitVec 32 := 0#32
  let v8 : BitVec 1 := Scalar.cmpi .ne v7 c0_i32_1
  v8

def k1_mult1 (i : grid1.Coords) : BitVec 32 :=
  let arg1 : BitVec 32 := BitVec.ofNat 32 (i 1).val
  let c1024_i32_2 : BitVec 32 := 1024#32
  let v9 : BitVec 32 := Scalar.muli arg1 c1024_i32_2
  v9
def k1_mult2 (i : grid1.Coords) : BitVec 32 :=
  let arg2 : BitVec 32 := BitVec.ofNat 32 (i 2).val
  let c512_i32_3 : BitVec 32 := 512#32
  let v11 : BitVec 32 := Scalar.muli arg2 c512_i32_3
  v11
def k1_off1 (i : grid1.Coords) : Fin 2 → Nat :=
  let arg1 : BitVec 32 := BitVec.ofNat 32 (i 1).val
  let c1024_i32_2 : BitVec 32 := 1024#32
  let v9 : BitVec 32 := Scalar.muli arg1 c1024_i32_2
  let v10 : BitVec 32 := v9
  let v13 : Index := Scalar.indexCast v10
  let c0 : Index := 0#32
  ![v13.toNat, 0]
def k1_off2 (i : grid1.Coords) : Fin 2 → Nat :=
  let arg2 : BitVec 32 := BitVec.ofNat 32 (i 2).val
  let c512_i32_3 : BitVec 32 := 512#32
  let v11 : BitVec 32 := Scalar.muli arg2 c512_i32_3
  let v12 : BitVec 32 := v11
  let v16 : Index := Scalar.indexCast v12
  let c0_4 : Index := 0#32
  ![v16.toNat, 0]
def k1_off3 (i : grid1.Coords) : Fin 2 → Nat :=
  let arg2 : BitVec 32 := BitVec.ofNat 32 (i 2).val
  let c512_i32_3 : BitVec 32 := 512#32
  let v11 : BitVec 32 := Scalar.muli arg2 c512_i32_3
  let v12 : BitVec 32 := v11
  let v36 : Index := Scalar.indexCast v12
  let c0_9 : Index := 0#32
  ![v36.toNat, 0]
def k1_cond1 (i : grid1.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 1 → Memref sig .tc .vmem S4096x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S4096x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1024x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  concatenates_S1024x256_S1024x256_S1024x512_d1 : Shape.Concatenates [S1024x256, S1024x256] S1024x512 1
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  slices_S4096x512_S4096x256_0_0 : S4096x512.Slices ![0, 0] S4096x256
  slices_S4096x512_S4096x256_0_256 : S4096x512.Slices ![0, 256] S4096x256
  shapeCasts_S4096_S4096x1 : S4096.ShapeCasts S4096x1
  inb_S1024x1280_S1024x1280_0_0 : ∀ a, (![0, 0] : Fin 2 → Nat) a + S1024x1280.size a ≤ S1024x1280.size a
  h_S1024x1280 : 0 < S1024x1280.numel
  h_S1024x256 : 0 < S1024x256.numel
  shapeCasts_S1024x256_S1024x256 : S1024x256.ShapeCasts S1024x256
  h_S512x256 : 0 < S512x256.numel
  shapeCasts_S512x256_S512x256 : S512x256.ShapeCasts S512x256
  transposes_S512x256_p1_0_S256x512 : S512x256.Transposes [1, 0] S256x512
  iota_S1024x1_d0_w32 : S1024x1.Iotas .tc 32 [0]
  iota_S1x512_d1_w32 : S1x512.Iotas .tc 32 [1]
  broadcasts_S1x512_S1024x512 : S1x512.Broadcasts S1024x512
  broadcasts_S1024x1_S1024x512 : S1024x1.Broadcasts S1024x512
  h_S512x1 : 0 < S512x1.numel
  shapeCasts_S512x1_S512x1 : S512x1.ShapeCasts S512x1
  iota_S1x1280_d1_w32 : S1x1280.Iotas .tc 32 [1]
  broadcasts_S512x1_S512x1280 : S512x1.Broadcasts S512x1280
  broadcasts_S1x1280_S512x1280 : S1x1280.Broadcasts S512x1280
  natLt_1_32 : 1 < 32
  shapeCasts_S1024x1280_S1024x1280 : S1024x1280.ShapeCasts S1024x1280
  dot_S512x1024_S1024x512_S512x512_1_0_0_1_n_n_wf : DotDims.WF S512x1024 S1024x512 S512x512 [1] [0] [0] [1] [] []
  dot_S1024x256_S256x512_S1024x512_1_0_0_1_n_n_wf : DotDims.WF S1024x256 S256x512 S1024x512 [1] [0] [0] [1] [] []
  dot_S1024x512_S512x1280_S1024x1280_1_0_0_1_n_n_wf : DotDims.WF S1024x512 S512x1280 S1024x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .bf16 = 32 ∨ (Rect.block (s := S4096x512) S512x512.size (cc0_transform_2 i) (hinb0_2 i)).WholeWords (EltTy.packing .bf16)
  hrank1 : 0 < grid1.rank
  k1_mult1_dvd : ∀ i : grid1.Coords, ∀ (k1_h2 : k1_cond2 i = 1#1), 1024 ∣ (k1_mult1 i).toNat
  k1_mult2_dvd : ∀ i : grid1.Coords, ∀ (k1_h2 : k1_cond2 i = 1#1), 512 ∣ (k1_mult2 i).toNat
  k1_off1_inb : ∀ i : grid1.Coords, ∀ (k1_h2 : k1_cond2 i = 1#1), ∀ a, (k1_off1 i) a + S1024x256.size a ≤ S4096x256.size a
  k1_off2_inb : ∀ i : grid1.Coords, ∀ (k1_h2 : k1_cond2 i = 1#1), ∀ a, (k1_off2 i) a + S512x256.size a ≤ S4096x256.size a
  k1_off3_inb : ∀ i : grid1.Coords, ∀ (k1_h2 : k1_cond2 i = 1#1), ∀ a, (k1_off3 i) a + S512x1.size a ≤ S4096x1.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S4096x256.size a
  hwx1_0 : ∀ i : grid1.Coords, EltTy.bits .bf16 = 32 ∨ (Rect.block (s := S4096x256) S4096x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S4096x1.size a
  hwx1_2 : ∀ i : grid1.Coords, EltTy.bits .i32 = 32 ∨ (Rect.block (s := S4096x1) S4096x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1280.size a ≤ S4096x32000.size a
  hwx1_3 : ∀ i : grid1.Coords, EltTy.bits .f32 = 32 ∨ (Rect.block (s := S4096x32000) S1024x1280.size (cc1_transform_3 i) (hinb1_3 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x1280_S1024x1280_1_0_0_1_n_n : DotDims S1024x512 S512x1280 S1024x1280 where
  lhsContracting := [1]
  rhsContracting := [0]
  lhsNonContracting := [0]
  rhsNonContracting := [1]
  lhsBatch := []
  rhsBatch := []
  wf := dot_S1024x512_S512x1280_S1024x1280_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S4096x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S4096x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1280.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S1024x256 : Shape := ⟨2, ![1024, 256]⟩
abbrev S4096x256 : Shape := ⟨2, ![4096, 256]⟩
abbrev S256x4096 : Shape := ⟨2, ![256, 4096]⟩
abbrev S4096x4096 : Shape := ⟨2, ![4096, 4096]⟩
abbrev S_ : Shape := ⟨0, ![]⟩
abbrev S32000x4096 : Shape := ⟨2, ![32000, 4096]⟩
abbrev S4096x1 : Shape := ⟨2, ![4096, 1]⟩
abbrev S4096x32000 : Shape := ⟨2, ![4096, 32000]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S1024x256, .f32⟩
  | .hbm, ⟨3, _⟩ => ⟨S1024x256, .f32⟩
  | .hbm, ⟨4, _⟩ => ⟨S4096x256, .f32⟩
  | .hbm, ⟨5, _⟩ => ⟨S4096x256, .f32⟩
  | .hbm, ⟨6, _⟩ => ⟨S256x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .i1⟩
  | .hbm, ⟨12, _⟩ => ⟨S4096x4096, .i1⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .i1⟩
  | .hbm, ⟨20, _⟩ => ⟨S4096x4096, .i1⟩
  | .hbm, ⟨21, _⟩ => ⟨S4096x4096, .i1⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S32000x4096, .f32⟩
  | .hbm, ⟨28, _⟩ => ⟨S4096x1, .i32⟩
  | .hbm, ⟨29, _⟩ => ⟨S32000x4096, .f32⟩
  | .hbm, ⟨30, _⟩ => ⟨S4096x32000, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩

abbrev nD : Nat := 1
abbrev τ : Topo := Topo.v7x

variable {F : FTy → Type} [FloatOps F]

class Facts₀ : Prop where
  transposes_S4096x256_S256x4096_1_0 : S4096x256.Transposes [1, 0] S256x4096
  bcast_S_S4096x4096 : S_.BroadcastsInDim S4096x4096 (![] : Fin 0 → Fin S4096x4096.rank)
  transposes_S4096x4096_S4096x4096_1_0 : S4096x4096.Transposes [1, 0] S4096x4096
  bcast_S_S32000x4096 : S_.BroadcastsInDim S32000x4096 (![] : Fin 0 → Fin S32000x4096.rank)
  bcast_S4096_S4096x1_0 : S4096.BroadcastsInDim S4096x1 (![0] : Fin 1 → Fin S4096x1.rank)
  transposes_S32000x4096_S4096x32000_1_0 : S32000x4096.Transposes [1, 0] S4096x32000
  dot_S4096x1024_S1024x256_S4096x256_1_0_0_1_n_n_wf : DotDims.WF S4096x1024 S1024x256 S4096x256 [1] [0] [0] [1] [] []
  dot_S4096x256_S256x4096_S4096x4096_1_0_0_1_n_n_wf : DotDims.WF S4096x256 S256x4096 S4096x4096 [1] [0] [0] [1] [] []
  scatter_S32000x4096_S4096x1_S4096x4096_1_0_0_1_wf : ScatterDims.WF S32000x4096 S4096x1 S4096x4096 [1] [0] [0] 1

variable [Facts₀]

def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def scatter_S32000x4096_S4096x1_S4096x4096_1_0_0_1 : ScatterDims S32000x4096 S4096x1 S4096x4096 where
  updateWindowDims := [1]
  insertedWindowDims := [0]
  scatterDimsToOperandDims := [0]
  indexVectorDim := 1
  wf := scatter_S32000x4096_S4096x1_S4096x4096_1_0_0_1_wf

class Facts : Prop extends Facts₀ where

variable [Facts]
-- ==== Proof.Kernel.Region0.lean ====
import proofs.«415133_j62843961475103_2_alg».proof.Proof.Gen.Kernel.Launch
import proofs.«415133_j62843961475103_2_alg».proof.Proof.Gen.Kernel.Skeleton
import proofs.«415133_j62843961475103_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first launch: one row tile of the activations against both weight matrices at once

The grid has eight points. Point `t` is handed rows `512 t … 512 t + 511` of the activations (window 0) and the
whole concatenated weight matrix (window 1, fetched once and kept), and leaves in the output window's buffer the
product of the two, rounded to the narrower format, which the pipeline writes back to rows `512 t …` of the
result. The body reads the output buffer once without using what it read, and stores it whole.
Everything here is stated at any float instance and at any contents `V` of the buffers when the launch is entered.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window holds its block at every point, for any proof data over `V` whose body leaves it there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window holds its block at every point, fetched there or kept from the first point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev rX0 : Rect S512x1024 := Rect.unit (s := S512x1024) ![0, 0] S512x1024.size inb_S512x1024_S512x1024_0_0
abbrev rW0 : Rect S1024x512 := Rect.unit (s := S1024x512) ![0, 0] S1024x512.size inb_S1024x512_S1024x512_0_0
abbrev rO0 : Rect S512x512 := Rect.unit (s := S512x512) ![0, 0] S512x512.size inb_S512x512_S512x512_0_0

/-! ## What the body leaves in the output window's buffer -/

/-- The one store, whole, of the product of the two loaded blocks. -/
def out0_2 (x0 : Vec F S512x1024 .f32) (x1 : Vec F S1024x512 .f32) : Vec F S512x512 .bf16 :=
  View.canon [⟨rO0, k0_pay1 (View.ld x0 rX0) (View.ld x1 rW0)⟩]

/-- The store covers the buffer. -/
theorem cover0_2 (p0 : Vec F S512x512 .bf16) (y : S512x512.Idx) :
    ∃ pc ∈ ([⟨rO0, p0⟩] : List (View.Piece (Elt F) S512x512 .bf16)), y ∈ pc.1.set :=
  View.cover_of_tiled [⟨rO0, p0⟩] S512x512.size (by rfl) y

/-! ## The body's triple -/

set_option maxHeartbeats 1000000 in
/-- On whole buffers, the inputs' at contents `x0`, `x1` and the output's at anything, the body runs to the
    continuation with the inputs' as they were and the output's at `out0_2 x0 x1`. -/
theorem sound_kernel0 (c : Dev nD) (E : Set ℕ) (i : grid0.Coords) (arg1 : Memref sig .tc .vmem S512x1024 .f32) (harg1 : arg1.IsWhole)
    (arg2 : Memref sig .tc .vmem S1024x512 .f32) (harg2 : arg2.IsWhole) (arg3 : Memref sig .tc .vmem S512x512 .bf16) (harg3 : arg3.IsWhole)
    (x0 : Vec F S512x1024 .f32) (x1 : Vec F S1024x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- After the body at point `t` each input's buffer holds its block and the output's the product of the two blocks;
    the body's invariant is the scoped buffers that are no staging buffer and the generator register; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.Kernel.Region1.lean ====
import proofs.«415133_j62843961475103_2_alg».proof.Proof.Gen.Kernel.Launch
import proofs.«415133_j62843961475103_2_alg».proof.Proof.Gen.Kernel.Skeleton
import proofs.«415133_j62843961475103_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-!
# The second launch: causal scores against the one-hot of the slot words, accumulated over key tiles

The grid has 25 × 4 × 8 points `(vj, qi, ki)`, `ki` fastest. Every point is handed the whole query projection (window
0), the whole key projection (window 1) and the whole column of slot words (window 2), each fetched once and kept.
The output window's block is rows `1024 qi …`, columns `1280 vj …` of the result; its index does not move with `ki`,
so its buffer is carried from `ki` to `ki + 1` and written back after `ki = 7`.
At `ki = 0` the body zeroes the buffer. Where key tile `ki` is not wholly after query tile `qi`
(`512 ki ≤ 1024 qi + 1023`) it then adds, to what the buffer holds, the product of the masked scaled scores of the
query rows against the 512 keys of the tile with the 0/1 matrix "key's word = column's slot number". At the other
points the body stores nothing.
Everything here is stated at any float instance and at any contents `V` of the buffers when the launch is entered.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window holds its block at every point, fetched there or kept from the first point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions over the grid -/

/-- The reset is taken exactly at the points with `ki = 0`. -/
theorem hcond1 : ∀ t : Fin cfg1.N, k1_cond1 (grid1.coords t) = 1#1 ↔ t.val % 8 = 0 :=
  (by decide +kernel : ∀ t : Fin grid1.N, k1_cond1 (grid1.coords t) = 1#1 ↔ t.val % 8 = 0)
/-- The update is taken exactly where the key tile is not wholly after the query tile: `ki ≤ 2 qi + 1`. -/
theorem hcond2 : ∀ t : Fin cfg1.N, k1_cond2 (grid1.coords t) = 1#1 ↔ t.val % 8 ≤ 2 * (t.val / 8 % 4) + 1 :=
  (by decide +kernel : ∀ t : Fin grid1.N, k1_cond2 (grid1.coords t) = 1#1 ↔ t.val % 8 ≤ 2 * (t.val / 8 % 4) + 1)
/-- In particular at every point that resets. -/
theorem hcond2_of_reset (t : Fin cfg1.N) (h0 : t.val % 8 = 0) : k1_cond2 (grid1.coords t) = 1#1 :=
  (hcond2 t).mpr (by omega)

/-! ## The body's accesses -/

/-- The query rows of tile `qi`, the key rows and the slot words of tile `ki`, and the whole output buffer. -/
abbrev rQ (i : grid1.Coords) (h2 : k1_cond2 i = 1#1) : Rect S4096x256 := Rect.unit (s := S4096x256) (k1_off1 i) S1024x256.size (k1_off1_inb i h2)
abbrev rK (i : grid1.Coords) (h2 : k1_cond2 i = 1#1) : Rect S4096x256 := Rect.unit (s := S4096x256) (k1_off2 i) S512x256.size (k1_off2_inb i h2)
abbrev rI (i : grid1.Coords) (h2 : k1_cond2 i = 1#1) : Rect S4096x1 := Rect.unit (s := S4096x1) (k1_off3 i) S512x1.size (k1_off3_inb i h2)
abbrev rO1 : Rect S1024x1280 := Rect.unit (s := S1024x1280) ![0, 0] S1024x1280.size inb_S1024x1280_S1024x1280_0_0

/-! ## What the body leaves in the output window's buffer -/

/-- One update: what the buffer held, plus the tile's product, from the three input windows' contents. -/
def step1 (i : grid1.Coords) (h2 : k1_cond2 i = 1#1) (x0 x1 : Vec F S4096x256 .bf16) (x2 : Vec F S4096x1 .i32)
    (prev : Vec F S1024x1280 .f32) : Vec F S1024x1280 .f32 :=
  k1_pay2 (BitVec.ofNat 32 (i 0).val) (BitVec.ofNat 32 (i 1).val) (BitVec.ofNat 32 (i 2).val)
    (View.ld x0 (rQ i h2)) (View.ld x1 (rK i h2)) (View.ld x2 (rI i h2)) prev

/-- THE ACCUMULATION. What the output window's buffer holds after the body at position `n`: at a point that resets,
    one update of the zero block; at a later point that updates, one update of what the point before left; at a
    point that stores nothing, what the point before left. -/
def outsAt1 (c : Dev nD) : (n : ℕ) → n < cfg1.N → Vec F S1024x1280 .f32
  | 0, hn => step1 (grid1.coords ⟨0, hn⟩) (hcond2_of_reset ⟨0, hn⟩ (Nat.zero_mod _)) (iblk1 V c 0 ⟨0, hn⟩) (iblk1 V c 1 ⟨0, hn⟩) (iblk1 V c 2 ⟨0, hn⟩) (k1_pay1 (F := F))
  | n + 1, hn =>
    if h0 : (n + 1) % 8 = 0 then
      step1 (grid1.coords ⟨n + 1, hn⟩) (hcond2_of_reset ⟨n + 1, hn⟩ h0) (iblk1 V c 0 ⟨n + 1, hn⟩) (iblk1 V c 1 ⟨n + 1, hn⟩) (iblk1 V c 2 ⟨n + 1, hn⟩) (k1_pay1 (F := F))
    else if h2 : k1_cond2 (grid1.coords ⟨n + 1, hn⟩) = 1#1 then
      step1 (grid1.coords ⟨n + 1, hn⟩) h2 (iblk1 V c 0 ⟨n + 1, hn⟩) (iblk1 V c 1 ⟨n + 1, hn⟩) (iblk1 V c 2 ⟨n + 1, hn⟩) (outsAt1 c n (Nat.lt_of_succ_lt hn))
    else outsAt1 c n (Nat.lt_of_succ_lt hn)

/-- At a point that resets. -/
theorem outsAt1_reset (c : Dev nD) (t : Fin cfg1.N) (h0 : t.val % 8 = 0) :
    outsAt1 V c t.val t.isLt = step1 (grid1.coords t) (hcond2_of_reset t h0) (iblk1 V c 0 t) (iblk1 V c 1 t) (iblk1 V c 2 t) (k1_pay1 (F := F)) := by
  obtain ⟨n, hn⟩ := t
  cases n with
  | zero => exact rfl
  | succ n => exact (dif_pos h0).trans rfl

/-- At a later point that updates. -/
theorem outsAt1_acc (c : Dev nD) (t : Fin cfg1.N) (h0 : ¬t.val % 8 = 0) (h2 : k1_cond2 (grid1.coords t) = 1#1) :
    outsAt1 V c t.val t.isLt = step1 (grid1.coords t) h2 (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h2).trans rfl)

/-- At a point that stores nothing. -/
theorem outsAt1_idle (c : Dev nD) (t : Fin cfg1.N) (h0 : ¬t.val % 8 = 0) (h2 : ¬k1_cond2 (grid1.coords t) = 1#1) :
    outsAt1 V c t.val t.isLt = outsAt1 V c (t.val - 1) (Nat.lt_of_le_of_lt (Nat.sub_le _ _) t.isLt) := by
  obtain ⟨n, hn⟩ := t
  cases n with
  | zero => exact absurd (Nat.zero_mod _) h0
  | succ n => exact (dif_neg h0).trans ((dif_neg h2).trans rfl)

/-! ## The body's triples, one for each case of its two conditions -/

set_option maxHeartbeats 1000000 in
/-- At a point that resets: on whole buffers, the inputs' at contents `x0`, `x1`, `x2` and the output's at anything,
    the body runs to the continuation with the inputs' as they were and the output's at one update of the zero block. -/
theorem sound_kernel1_A (c : Dev nD) (E : Set ℕ) (i : grid1.Coords)
    (arg3 : Memref sig .tc .vmem S4096x256 .bf16) (harg3 : arg3.IsWhole)
    (arg4 : Memref sig .tc .vmem S4096x256 .bf16) (harg4 : arg4.IsWhole)
    (arg5 : Memref sig .tc .vmem S4096x1 .i32) (harg5 : arg5.IsWhole)
    (arg6 : Memref sig .tc .vmem S1024x1280 .f32) (harg6 : arg6.IsWhole)
    (hc1 : k1_cond1 i = 1#1) (hc2 : k1_cond2 i = 1#1)
    (x0 x1 : Vec F S4096x256 .bf16) (x2 : Vec F S4096x1 .i32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (step1 i hc2 x0 x1 x2 (k1_pay1 (F := F)))) -∗ K ⟨⟩))
      ⊢ wp frame (wpE (defs₀ (F := F)) Variants.none c none) E (cc1_kernel i arg3 harg3 arg4 harg4 arg5 harg5 arg6 harg6) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self,
    View.mem_set_unit_zero (by funext a; fin_cases a <;> rfl) inb_S1024x1280_S1024x1280_0_0 y⟩)]
  sl_unfold_run_names
  rw [View.canon_cons_unit_zero (by funext a; fin_cases a <;> rfl) inb_S1024x1280_S1024x1280_0_0]
  unfold step1
  rw [View.readAt_eq_ld, View.readAt_eq_ld, View.readAt_eq_ld,
    View.readCov_unit_zero arg6.view (by funext a; fin_cases a <;> rfl) inb_S1024x1280_S1024x1280_0_0]

set_option maxHeartbeats 1000000 in
/-- At a point that updates without resetting: on whole buffers, the inputs' at contents `x0`, `x1`, `x2` and the
    output's at `xo`, the body runs to the continuation with the inputs' as they were and the output's one update on. -/
theorem sound_kernel1_B (c : Dev nD) (E : Set ℕ) (i : grid1.Coords)
    (arg3 : Memref sig .tc .vmem S4096x256 .bf16) (harg3 : arg3.IsWhole)
    (arg4 : Memref sig .tc .vmem S4096x256 .bf16) (harg4 : arg4.IsWhole)
    (arg5 : Memref sig .tc .vmem S4096x1 .i32) (harg5 : arg5.IsWhole)
    (arg6 : Memref sig .tc .vmem S1024x1280 .f32) (harg6 : arg6.IsWhole)
    (hc1 : ¬k1_cond1 i = 1#1) (hc2 : k1_cond2 i = 1#1)
    (x0 x1 : Vec F S4096x256 .bf16) (x2 : Vec F S4096x1 .i32) (xo : Vec F S1024x1280 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo
        ∗ (iprop(owns (c : Thread nD τ) arg3 fullShare x0 ∗ owns (c : Thread nD τ) arg4 fullShare x1 ∗ owns (c : Thread nD τ) arg5 fullShare x2
            ∗ owns (c : Thread nD τ) arg6 fullShare (step1 i hc2 x0 x1 x2 xo)) -∗ K ⟨⟩))
      ⊢ wp frame (wpE (defs₀ (F := F)) Variants.none c none) E (cc1_kernel i arg3 harg3 arg4 harg4 arg5 harg5 arg6 harg6) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _,
    View.mem_set_unit_zero (by funext a; fin_cases a <;> rfl) inb_S1024x1280_S1024x1280_0_0 y⟩)]
  sl_unfold_run_names
  rw [View.canon_unit_zero (by funext a; fin_cases a <;> rfl) inb_S1024x1280_S1024x1280_0_0]
  unfold step1
  rw [View.readAt_eq_ld, View.readAt_eq_ld, View.readAt_eq_ld, View.readAt_eq_ld,
    View.ld_unit_zero (by funext a; fin_cases a <;> rfl) inb_S1024x1280_S1024x1280_0_0]

/-- At a point that neither resets nor updates the body touches nothing: it runs to the continuation from
    whatever the continuation needs. -/
theorem sound_kernel1_C (c : Dev nD) (E : Set ℕ) (i : grid1.Coords)
    (arg3 : Memref sig .tc .vmem S4096x256 .bf16) (harg3 : arg3.IsWhole)
    (arg4 : Memref sig .tc .vmem S4096x256 .bf16) (harg4 : arg4.IsWhole)
    (arg5 : Memref sig .tc .vmem S4096x1 .i32) (harg5 : arg5.IsWhole)
    (arg6 : Memref sig .tc .vmem S1024x1280 .f32) (harg6 : arg6.IsWhole)
    (hc1 : ¬k1_cond1 i = 1#1) (hc2 : ¬k1_cond2 i = 1#1) (K : PUnit → sProp 𝕄) :
    K ⟨⟩ ⊢ wp frame (wpE (defs₀ (F := F)) Variants.none c none) E (cc1_kernel i arg3 harg3 arg4 harg4 arg5 harg5 arg6 harg6) K := by
  simp only [cc1_kernel_eq_skeleton]; unfold cc1_kernel_skel
  iintro HK
  sl_exec (disch := first | exact hc1 | exact hc2)
  sl_step
  iexact HK

/-! ## The proof data -/

/-- After the body at point `t` each input's buffer holds its block and the output's the accumulation; the body's
    invariant is the scoped buffers that are no staging buffer and the generator register; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point where the body stores into the output window's buffer, the next point finds there all the body
    left: the window's blocks are never cut. -/
theorem kept1_3 (c : Dev nD) (t : Fin cfg1.N) (d) : (dat1 V c).kept 3 t d = outsAt1 V c t.val t.isLt := by
  unfold Dat.kept
  exact ((Pipeline.fill_of_clip_none (cfg := cfg1) 3 (cfg1.grid.coords t) (fun _ => rfl) d ((dat1 V c).after 3 t) _).trans
    ((cfg1.win 3).fill_cut _ _)).trans (after1_3 V c t)

/-- What the body leaves in the output window's buffer at a point that is not written back, given what it found
    there: the accumulation at that point, whether it stored or not. -/
theorem left1_3 (c : Dev nD) (t : Fin cfg1.N) (d)
    (hprev : ¬t.val % 8 = 0 → (dat1 V c).before 3 t d = outsAt1 V c (t.val - 1) (Nat.lt_of_le_of_lt (Nat.sub_le _ _) t.isLt)) :
    (dat1 V c).left 3 t d = outsAt1 V c t.val t.isLt := by
  unfold Dat.left
  split
  · next hi =>
    have hi' : (!(k1_cond1 (grid1.coords t) == 1#1) && !(k1_cond2 (grid1.coords t) == 1#1)) = true := hi
    have h1 : ¬k1_cond1 (grid1.coords t) = 1#1 := fun h => by simp [h] at hi'
    have h2 : ¬k1_cond2 (grid1.coords t) = 1#1 := fun h => by simp [h] at hi'
    have h0 : ¬t.val % 8 = 0 := fun h => h1 ((hcond1 t).mpr h)
    rw [hprev h0, outsAt1_idle V c t h0 h2]
  · exact kept1_3 V c t d

/-- The induction behind `before1_3_acc`, over the position. -/
theorem before1_3_acc_aux (c : Dev nD) : ∀ (n : ℕ) (t : Fin cfg1.N), t.val = n → ¬t.val % 8 = 0 → ∀ d,
    (dat1 V c).before 3 t d = outsAt1 V c (t.val - 1) (Nat.lt_of_le_of_lt (Nat.sub_le _ _) t.isLt) := by
  intro n
  induction n using Nat.strong_induction_on with
  | _ n ih =>
    intro t htn h0 d
    have hN : t.val < 800 := lt_of_lt_of_eq t.isLt (show cfg1.N = 800 from N_1)
    have ht : t.val ≠ 0 := fun h => h0 (by rw [h])
    have hfl : (cfg1.win 3).flush ⟨t.val - 1, Nat.lt_of_le_of_lt (Nat.sub_le _ _) t.isLt⟩ = false :=
      Bool.eq_false_iff.mpr fun h => by have := (flush1_3 _).mp h; dsimp only at this; omega
    rw [(dat1 V c).before_of_pos 3 t ht ((cfg1.win 3).fetch_out rfl t), hfl, if_neg Bool.false_ne_true]
    exact left1_3 V c ⟨t.val - 1, Nat.lt_of_le_of_lt (Nat.sub_le _ _) t.isLt⟩ d
      (fun h => ih (t.val - 1) (by omega) ⟨t.val - 1, Nat.lt_of_le_of_lt (Nat.sub_le _ _) t.isLt⟩ rfl h d)

/-- At a point that does not reset, the output window's buffer holds what the point before left: it was not written
    back between, and a point that stores nothing hands on what it found. -/
theorem before1_3_acc (c : Dev nD) (t : Fin cfg1.N) (h0 : ¬t.val % 8 = 0) (d) :
    (dat1 V c).before 3 t d = outsAt1 V c (t.val - 1) (Nat.lt_of_le_of_lt (Nat.sub_le _ _) t.isLt) := by
  exact before1_3_acc_aux V c t.val t rfl h0 d

/-! ## The output window's post, case by case -/

/-- At a point where the body stores into the output window's buffer, the obligation asks for what it leaves there. -/
theorem leavesExact1_3_live (c : Dev nD) (t : Fin cfg1.N) (hi : cfg1.idle 3 (cfg1.grid.coords t) = false) :
    (dat1 V c).leavesExact 3 t = owns (c : Thread nD τ) (st1_3 t) fullShare ((dat1 V c).after 3 t) := by
  unfold Dat.leavesExact
  split
  · next h => exact Bool.noConfusion (h.symm.trans hi)
  · rfl

/-- At a point that is written back, too, whether the body stored or not. -/
theorem leavesExact1_3_flush (c : Dev nD) (t : Fin cfg1.N) (hf : (cfg1.win 3).flush t = true) :
    (dat1 V c).leavesExact 3 t = owns (c : Thread nD τ) (st1_3 t) fullShare ((dat1 V c).after 3 t) := by
  unfold Dat.leavesExact
  split
  · split
    · next h => exact Bool.noConfusion (h.symm.trans hf)
    · rfl
  · rfl

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the inputs' buffers at their blocks; the output's at the accumulation, or, where the
    body stores nothing and the pipeline does not write the block back, at what it was handed. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t)

set_option maxHeartbeats 1000000 in
/-- The body at any point, by the three cases of its two conditions: a reset and update of a buffer handed over at
    anything; an update of what the point before left; nothing, the buffer going back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2]
  by_cases h0 : t.val % 8 = 0
  · have hc1 : k1_cond1 (grid1.coords t) = 1#1 := (hcond1 t).mpr h0
    have hc2 : k1_cond2 (grid1.coords t) = 1#1 := hcond2_of_reset t h0
    have hi : cfg1.idle 3 (cfg1.grid.coords t) = false := by
      show (!(k1_cond1 (grid1.coords t) == 1#1) && !(k1_cond2 (grid1.coords t) == 1#1)) = false; simp [hc1]
    rw [leavesExact1_3_live V c t hi, after1_3, outsAt1_reset V c t h0]
    iintro ⟨HΦ, Ho, ⟨%d0, H0⟩, ⟨%d1, H1⟩, ⟨%d2, H2⟩, ⟨%d3, H3⟩⟩
    iapply (sound_kernel1_A c Set.univ (grid1.coords t) _ _ _ _ _ _ _ _ hc1 hc2 (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have hc1 : ¬k1_cond1 (grid1.coords t) = 1#1 := fun h => h0 ((hcond1 t).mp h)
    by_cases h2 : k1_cond2 (grid1.coords t) = 1#1
    · have hi : cfg1.idle 3 (cfg1.grid.coords t) = false := by
        show (!(k1_cond1 (grid1.coords t) == 1#1) && !(k1_cond2 (grid1.coords t) == 1#1)) = false; simp [h2]
      rw [leavesExact1_3_live V c t hi, after1_3, outsAt1_acc V c t h0 h2]
      simp only [before1_3_acc V c t h0]
      iintro ⟨HΦ, Ho, ⟨%d0, H0⟩, ⟨%d1, H1⟩, ⟨%d2, H2⟩, ⟨%d3, H3⟩⟩
      iapply (sound_kernel1_B c Set.univ (grid1.coords t) _ _ _ _ _ _ _ _ hc1 h2 (iblk1 V c 0 t) (iblk1 V c 1 t) (iblk1 V c 2 t)
        (outsAt1 V c (t.val - 1) (Nat.lt_of_le_of_lt (Nat.sub_le _ _) t.isLt)) _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · have hi : cfg1.idle 3 (cfg1.grid.coords t) = true := by
        show (!(k1_cond1 (grid1.coords t) == 1#1) && !(k1_cond2 (grid1.coords t) == 1#1)) = true; simp [hc1, h2]
      by_cases h7 : t.val % 8 = 7
      · rw [leavesExact1_3_flush V c t ((flush1_3 t).mpr h7), after1_3, outsAt1_idle V c t h0 h2]
        simp only [before1_3_acc V c t h0]
        iintro ⟨HΦ, Ho, ⟨%d0, H0⟩, ⟨%d1, H1⟩, ⟨%d2, H2⟩, ⟨%d3, H3⟩⟩
        iapply (sound_kernel1_C c Set.univ (grid1.coords t) _ _ _ _ _ _ _ _ hc1 h2 _)
        isplitl [HΦ]; · iexact HΦ
        isplitl [Ho]; · iexact Ho
        isplitl [H0]; · iexact H0
        isplitl [H1]; · iexact H1
        isplitl [H2]; · iexact H2
        iexact H3
      · rw [Dat.leavesExact_idle (dat1 V c) 3 t hi (Bool.eq_false_iff.mpr fun h => h7 ((flush1_3 t).mp h))]
        iintro ⟨HΦ, Ho, ⟨%d0, H0⟩, ⟨%d1, H1⟩, ⟨%d2, H2⟩, ⟨%d3, H3⟩⟩
        iapply (sound_kernel1_C c Set.univ (grid1.coords t) _ _ _ _ _ _ _ _ hc1 h2 _)
        isplitl [HΦ]; · iexact HΦ
        isplitl [Ho]; · iexact Ho
        isplitl [H0]; · iexact H0
        isplitl [H1]; · iexact H1
        isplitl [H2]; · iexact H2
        iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.LibRegion.lean ====
import Idealize.ShloMosaic.Lib.Pipeline.FrameBody
import Idealize.ShloMosaic.Lib.Pipeline.Regions
import Idealize.ShloMosaic.Lib.Pipeline.RegionsLoop
import Idealize.ShloMosaic.Lib.Tactic

/-!
# A kernel region over the thread state "every unscoped buffer at a valuation", for windows that may share an array

`regionSegHeld` builds the segment record of a kernel region whose thread state before and after is every unscoped
buffer of the core held whole at a valuation, beside the generator register and the core owing nothing. The
buffers behind the windows' arrays are cut out of the unscoped buffers as a set (so two windows on one array cut
out one buffer), and how that set of whole buffers is dealt among the windows is a hypothesis (`hsplit` / `hjoin`).

`arrays_eq_arrBufs_shared` discharges that hypothesis where exactly two input windows read one array, one at the
left half of the full share and one at the right half; `arrays_eq_arrBufs_distinct` where all arrays are distinct.
-/

noncomputable section

namespace Cert.LibRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg Window BodyObligationLoose WinFacts WinFacts₀ arrRef arrBufs unscopedRest pin)

variable {nD : Nat} {τ : Topo} {sig : RefSig} {Val : EltTy → Type}
variable {U : Type} [URA U]

local notation "𝕄" => MT nD τ sig Unit Val ℕ U ℕ

/-- What rides beside the buffers through every segment: the core's generator register at some state and the core
    owing nothing, at some recorded set. -/
abbrev R (c : Dev nD) : sProp 𝕄 :=
  iprop((∃ r, prngReg c r) ∗ ∃ W, owes (c : Thread nD τ) (0 : CellTallies nD τ sig Unit) W)

/-! ## Dealing the buffers behind the arrays among the windows -/

section Share

variable {Λ₀ : Idealize.SL.Sem.Labels} (cfg : Cfg sig Λ₀) (c : Dev nD) (dat : Dat τ Val Unit ℕ U ℕ cfg c)

/-- The buffer behind window `w`'s array, whole at share `q`, at the contents the valuation `V` names for it. -/
abbrev winBuf (V : (b : Ref sig .tc) → Buf Val ((c.tc : Thread nD τ).loc b)) (w : Fin cfg.W) (q : PosShare TreeShare) : sProp 𝕄 :=
  ((c.tc : Thread nD τ).loc (arrRef cfg.spec w)) ↦{q} V (arrRef cfg.spec w)

/-- The pipeline's arrays, each a whole buffer, at contents read off `V`: each window's buffer at the window's share. -/
theorem arrays_eq_winBufs (harr : ∀ w, (cfg.spec w).arr.IsWhole) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = bigSep Finset.univ fun w => (winBuf cfg c V w (dat.share w) : sProp 𝕄) := by
  unfold Dat.arrays
  exact bigSep_congr fun w _ => by rw [(harr w).set_eq_univ, hF]

/-- All arrays distinct whole buffers, every window at the full share: the pipeline's arrays at contents read off a
    valuation `V` are the buffers behind them whole at `V`. -/
theorem arrays_eq_arrBufs_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = (arrBufs cfg.spec c V : sProp 𝕄) := by
  classical
  rw [arrays_eq_winBufs cfg c dat harr V F hF]
  unfold arrBufs
  rw [show Finset.univ.image (arrRef cfg.spec) = Finset.univ.map ⟨arrRef cfg.spec, hinj⟩ from
    (Finset.map_eq_image ⟨arrRef cfg.spec, hinj⟩ Finset.univ).symm, bigSep_map]
  exact bigSep_congr fun w _ => by rw [hshare]; rfl

/-- Two windows `w₀ ≠ w₁` read ONE array, `w₀` at the left half of the full share and `w₁` at the right half; the
    arrays are otherwise distinct (distinct off `w₁`) and every other window holds its array at the full share; every
    array is a whole buffer. Then the pipeline's arrays at contents read off a valuation `V` are the DISTINCT buffers
    behind them whole at `V`: the shared buffer's full share is the two halves (the share law of the points-to). -/
theorem arrays_eq_arrBufs_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = (arrBufs cfg.spec c V : sProp 𝕄) := by
  classical
  have hw₀ : w₀ ∈ (Finset.univ : Finset (Fin cfg.W)).erase w₁ := Finset.mem_erase.mpr ⟨hne, Finset.mem_univ _⟩
  -- the distinct buffers are those of the windows other than w₁, on which the arrays are distinct
  have himg : Finset.univ.image (arrRef cfg.spec) = (Finset.univ.erase w₁).image (arrRef cfg.spec) := by
    ext b
    simp only [Finset.mem_image, Finset.mem_univ, true_and, Finset.mem_erase, and_true]
    constructor
    · rintro ⟨w, rfl⟩
      by_cases hw : w = w₁
      · exact ⟨w₀, hne, by rw [hw, h01]⟩
      · exact ⟨w, hw, rfl⟩
    · rintro ⟨w, _, rfl⟩; exact ⟨w, rfl⟩
  have hbufs : (arrBufs cfg.spec c V : sProp 𝕄) = bigSep (Finset.univ.erase w₁) fun w => (winBuf cfg c V w fullShare : sProp 𝕄) := by
    unfold arrBufs bigSep
    rw [himg]
    exact Finset.fold_image fun x hx y hy h => hinj x y (Finset.ne_of_mem_erase hx) (Finset.ne_of_mem_erase hy) h
  -- window w₀'s buffer out of them, its full share the two halves
  have h2 : bigSep (Finset.univ.erase w₁) (fun w => (winBuf cfg c V w fullShare : sProp 𝕄))
      = iprop(winBuf cfg c V w₀ fullShare ∗ bigSep ((Finset.univ.erase w₁).erase w₀) fun w => (winBuf cfg c V w fullShare : sProp 𝕄)) :=
    bigSep_erase hw₀
  have h3 : (winBuf cfg c V w₀ fullShare : sProp 𝕄) = iprop(winBuf cfg c V w₀ fullShare.left ∗ winBuf cfg c V w₀ fullShare.right) := by
    have hs : (winBuf cfg c V w₀ fullShare : sProp 𝕄) ⊣⊢ iprop(winBuf cfg c V w₀ fullShare.left ∗ winBuf cfg c V w₀ fullShare.right) :=
      pointsTo_share (PosShare.mem_left_op_right fullShare)
    exact BI.equiv_iff.mp ⟨hs.1, hs.2⟩
  -- the windows' arrays: w₁'s at the right half, w₀'s at the left half, the others' whole
  have e1 : dat.share w₁ = fullShare.right := by rw [hshare, if_neg (Ne.symm hne), if_pos rfl]
  have e0 : dat.share w₀ = fullShare.left := by rw [hshare, if_pos rfl]
  have h1 : bigSep Finset.univ (fun w => (winBuf cfg c V w (dat.share w) : sProp 𝕄))
      = iprop(winBuf cfg c V w₁ fullShare.right ∗ winBuf cfg c V w₀ fullShare.left
          ∗ bigSep ((Finset.univ.erase w₁).erase w₀) fun w => (winBuf cfg c V w fullShare : sProp 𝕄)) := by
    rw [bigSep_erase (Finset.mem_univ w₁), bigSep_erase hw₀, e1, e0]
    congr 2
    exact bigSep_congr fun w hw => by
      rw [hshare, if_neg (Finset.ne_of_mem_erase hw), if_neg (Finset.ne_of_mem_erase (Finset.mem_of_mem_erase hw))]
  -- w₁'s buffer is w₀'s
  have h4 : (winBuf cfg c V w₁ fullShare.right : sProp 𝕄) = winBuf cfg c V w₀ fullShare.right := by
    unfold winBuf; rw [h01]
  rw [arrays_eq_winBufs cfg c dat harr V F hF, hbufs, h1, h2, h3, h4]
  refine BI.equiv_iff.mp ⟨?_, ?_⟩
  · show (_ : sProp 𝕄) ⊢ _
    iintro ⟨Hr, Hl, Hs⟩
    isplitl [Hl Hr]
    · isplitl [Hl] <;> iassumption
    iexact Hs
  · show (_ : sProp 𝕄) ⊢ _
    iintro ⟨⟨Hl, Hr⟩, Hs⟩
    isplitl [Hr]; · iexact Hr
    isplitl [Hl] <;> iassumption

/-- ENTRY, shared array: the distinct buffers behind the arrays, whole at `V`, deal the pipeline its arrays at the
    contents read off `V` (`arrays_eq_arrBufs_shared`, right to left). -/
theorem arrBufs_split_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊢ dat.arrays F :=
  Entails.of_eq (arrays_eq_arrBufs_shared cfg c dat w₀ w₁ hne h01 hinj harr hshare V F hF).symm

/-- EXIT, shared array: the pipeline's arrays at contents read off `V` are collected into the distinct buffers behind
    them, whole at `V` (`arrays_eq_arrBufs_shared`, left to right). -/
theorem arrBufs_join_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F ⊢ (arrBufs cfg.spec c V : sProp 𝕄) :=
  Entails.of_eq (arrays_eq_arrBufs_shared cfg c dat w₀ w₁ hne h01 hinj harr hshare V F hF)

/-- ENTRY, distinct arrays (`arrays_eq_arrBufs_distinct`, right to left). -/
theorem arrBufs_split_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊢ dat.arrays F :=
  Entails.of_eq (arrays_eq_arrBufs_distinct cfg c dat hinj harr hshare V F hF).symm

/-- EXIT, distinct arrays (`arrays_eq_arrBufs_distinct`, left to right). -/
theorem arrBufs_join_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F ⊢ (arrBufs cfg.spec c V : sProp 𝕄) :=
  Entails.of_eq (arrays_eq_arrBufs_distinct cfg c dat hinj harr hshare V F hF)

end Share

/-! ## The region's segment record -/

section Region

variable {Λ₀ : Idealize.SL.Sem.Labels} {P : Type} [Fintype P]
variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- A kernel region entered from every unscoped buffer held whole at `Vin c` (beside `R c`) and left at `Vout c`:
    no prefetched table, no semaphore of the kernel's own, nothing owed. The body's invariant at the first point is
    made of the generator register and the scoped buffers that are no staging buffer (`hin`), and gives them back at
    the last point (`hout`). The buffers behind the arrays are dealt to the windows by `hsplit` at entry and
    collected by `hjoin` at exit; off those buffers the valuation is unchanged (`hrest`). -/
def regionSegHeld (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := unscopedRest (Ix := Unit) (Name := ℕ) (U := U) (Lvl := ℕ) (pin pcs a p).spec c (fun b => Vin c b)
  hentry c := by
    -- the unscoped buffers at `Vin c` are the buffers behind the arrays and the rest; the former are dealt to the windows
    rw [Pipeline.ownSems0_none]
    have hub : (StableHlo.held (c : Thread nD τ) (Pipeline.ucRefs τ sig) (Vin c) : sProp 𝕄)
        = iprop(arrBufs (pin pcs a p).spec c (fun b => Vin c b) ∗ unscopedRest (pin pcs a p).spec c (fun b => Vin c b)) := by
      rw [← Pipeline.unscopedBufs_held, Pipeline.unscopedBufs_split₀ (pin pcs a) p win.arr_unscoped c]
    rw [hub]
    have hs := hsplit c
    iintro ⟨⟨⟨Hab, Hrest⟩, Hp, HO⟩, -, -⟩
    ihave Ha := hs $$ Hab
    imodintro
    isplitl [Ha]; · iexact Ha
    isplitr
    · -- no table is prefetched: nothing to hold
      unfold Pipeline.prefHeld
      rw [show (Finset.univ : Finset (Fin (pcs p).pre.K)) = ∅ from
        Finset.univ_eq_empty_iff.mpr ⟨fun k => by have := k.isLt; omega⟩, BI.bigSep_empty]
      iempintro
    isplitl [HO]
    · -- nothing owed; any recorded set lies within the first point's bound
      unfold Pipeline.Dat.owesAt Pipeline.owesWithin
      icases HO with ⟨%W, HO⟩; iexists W; isplitr
      · ipureintro; exact fun x _ => Or.inl (by rw [hrec c]; trivial)
      rw [howed c 0]; iexact HO
    isplitl [Hp]; · iexact Hp
    iexact Hrest
  hin c := by
    have h := hin c
    iintro ⟨Hp, -, Hr⟩
    iapply h
    isplitl [Hp] <;> iassumption
  hout c := by
    rw [Pipeline.ownSems0_none]
    refine (hout c).trans ?_
    iintro ⟨Hp, Hr⟩
    isplitl [Hp]; · iexact Hp
    isplitr; · iempintro
    iexact Hr
  hexit c := by
    -- the unscoped buffers at `Vout c` are the buffers behind the arrays at `Vout c` and the rest, unchanged since entry
    have hub : (StableHlo.held (c : Thread nD τ) (Pipeline.ucRefs τ sig) (Vout c) : sProp 𝕄)
        = iprop(arrBufs (pin pcs a p).spec c (fun b => Vout c b) ∗ unscopedRest (pin pcs a p).spec c (fun b => Vin c b)) := by
      rw [← Pipeline.unscopedBufs_held, Pipeline.unscopedBufs_split₀ (pin pcs a) p win.arr_unscoped c]
      congr 1
      unfold Pipeline.unscopedRest
      exact bigSep_congr fun b hb => by beta_reduce; rw [hrest c b (Finset.mem_sdiff.mp hb).2]
    rw [hub]
    have hj := hjoin c
    iintro ⟨Ha, HO, HY, Hrest⟩
    ihave Hab := hj $$ Ha
    imodintro
    isplitl [Hab Hrest]
    · isplitl [Hab] <;> iassumption
    isplitl [HY]; · iexact HY
    unfold Pipeline.Dat.owesAt Pipeline.owesWithin
    icases HO with ⟨%W, -, HO⟩; iexists W
    rw [howed c (Fin.last _)]; iexact HO

/-- The thread state `regionSegHeld` is entered from. -/
theorem regionSegHeld_pre (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeld pcs a pdats defs₀ 𝒱₀ L lv p win block_pos stage_whole hpre hbody hin hout howed hrec Vin Vout hsplit hjoin hrest).pre c
      = iprop(StableHlo.held (c : Thread nD τ) (Pipeline.ucRefs τ sig) (Vin c) ∗ R c) := rfl

/-- The thread state `regionSegHeld` leaves. -/
theorem regionSegHeld_post (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeld pcs a pdats defs₀ 𝒱₀ L lv p win block_pos stage_whole hpre hbody hin hout howed hrec Vin Vout hsplit hjoin hrest).post c
      = iprop(StableHlo.held (c : Thread nD τ) (Pipeline.ucRefs τ sig) (Vout c) ∗ R c) := rfl

/-- The class invariant (the scoped buffers that are no staging buffer, the generator register) is made of the
    generator register and those scoped buffers. -/
theorem ΦA_of (p : P) (c : Dev nD) :
    (iprop((∃ r, prngReg c r) ∗ Pipeline.scopedRest (pin pcs a p).spec c) : sProp 𝕄) ⊢ Pipeline.ΦA (pin pcs a p).spec c := by
  unfold Pipeline.ΦA
  iintro ⟨Hp, Hr⟩
  isplitl [Hr] <;> iassumption

/-- The class invariant gives back the generator register and the scoped buffers that are no staging buffer. -/
theorem of_ΦA (p : P) (c : Dev nD) :
    (Pipeline.ΦA (pin pcs a p).spec c : sProp 𝕄) ⊢ iprop((∃ r, prngReg c r) ∗ Pipeline.scopedRest (pin pcs a p).spec c) := by
  unfold Pipeline.ΦA
  iintro ⟨Hr, Hp⟩
  isplitl [Hp] <;> iassumption

/-- `regionSegHeld` for a body whose invariant at the first and at the last point IS the class invariant. -/
def regionSegHeldA (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p :=
  regionSegHeld pcs a pdats defs₀ 𝒱₀ L lv p win block_pos stage_whole hpre hbody
    (fun c => by rw [hΦ0 c]; exact ΦA_of pcs a p c) (fun c => by rw [hΦN c]; exact of_ΦA pcs a p c)
    howed hrec Vin Vout hsplit hjoin hrest

/-- The thread state `regionSegHeldA` is entered from. -/
theorem regionSegHeldA_pre (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldA pcs a pdats defs₀ 𝒱₀ L lv p win block_pos stage_whole hpre hbody hΦ0 hΦN howed hrec Vin Vout hsplit hjoin hrest).pre c
      = iprop(StableHlo.held (c : Thread nD τ) (Pipeline.ucRefs τ sig) (Vin c) ∗ R c) := rfl

/-- The thread state `regionSegHeldA` leaves. -/
theorem regionSegHeldA_post (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldA pcs a pdats defs₀ 𝒱₀ L lv p win block_pos stage_whole hpre hbody hΦ0 hΦN howed hrec Vin Vout hsplit hjoin hrest).post c
      = iprop(StableHlo.held (c : Thread nD τ) (Pipeline.ucRefs τ sig) (Vout c) ∗ R c) := rfl

end Region

end Cert.LibRegion

end
-- ==== Proof.Kernel.Launch.lean ====
import proofs.«415133_j62843961475103_2_alg».proof.Proof.Gen.Kernel.Regions
import proofs.«415133_j62843961475103_2_alg».proof.Proof.Kernel.Region0
import proofs.«415133_j62843961475103_2_alg».proof.Proof.Kernel.Region1
import proofs.«415133_j62843961475103_2_alg».proof.Proof.LibRegion
import Idealize.ShloMosaic.Lib.Pipeline.Kit

/-!
# The whole run: a host line, the first launch, three host lines, the second launch

Between two items every unscoped buffer of the core is held whole at a valuation: the launch contents, then each
host stretch's operations applied, then after a launch its output array at what the pipeline's write-backs leave
(`Dat.arrAt` at the last point) and every other buffer as entered. Beside the buffers ride the generator register
and the core owing nothing. Each launch is a segment from its entry valuation to its exit valuation, built from its
body obligation; the run's last valuation is read back against the final memory.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the launches' entries and what the launches leave -/

/-- The TensorCore's buffers when the first launch is entered: the launch memory after the concatenation. -/
abbrev VR1 : (c : Dev nD) → (b : Ref sig .tc) → Buf (Elt F) ((c : Thread nD τ).loc b) := fun c b => Gen.V1 m c b

/-- What the first launch leaves in its result array. -/
def X1 (c : Dev nD) : Buf (Elt F) ((c : Thread nD τ).loc main_v1) := (dat0 (VR1 m) c).arrAt 2 cfg0.N

/-- The buffers after the first launch, -/
abbrev W2 (c : Dev nD) : Valuation τ sig (Elt F) := Function.update (Gen.V1 m c) main_v1 (X1 m c)
/-- and after the two slices and the reshape that follow it: the second launch's entry. -/
abbrev W3 (c : Dev nD) : Valuation τ sig (Elt F) := StableHlo.after hostOps1 (W2 m c)
abbrev VR3 : (c : Dev nD) → (b : Ref sig .tc) → Buf (Elt F) ((c : Thread nD τ).loc b) := fun c b => W3 m c b

/-- What the second launch leaves in the program's result array. -/
def X5 (c : Dev nD) : Buf (Elt F) ((c : Thread nD τ).loc main_v5) := (dat1 (VR3 m) c).arrAt 3 cfg1.N

/-- What the launches leave, as the table the valuations between the items are written over. -/
def outs : Gen.Outs (F := F) := fun _ r c =>
  if h : r = main_v1 then h ▸ X1 m c else if h : r = main_v5 then h ▸ X5 m c else Gen.V0 m c r

theorem outs_v1 (j : ℕ) (c : Dev nD) : outs m j main_v1 c = X1 m c := by
  unfold outs; rw [dif_pos rfl]
theorem outs_v5 (j : ℕ) (c : Dev nD) : outs m j main_v5 c = X5 m c := by
  unfold outs; rw [dif_neg (by decide), dif_pos rfl]

theorem V2_eq (c : Dev nD) : Gen.V2 m (outs m) c = W2 m c := by
  unfold Gen.V2 W2; rw [outs_v1]
theorem V3_eq (c : Dev nD) : Gen.V3 m (outs m) c = W3 m c := by
  unfold Gen.V3 W3; rw [V2_eq]

/-! ## The proof data of the two launches -/

/-- Each launch's proof data at its entry contents. -/
def pdats : (p : Fin 2) → (c : Dev nD) → Dat τ (Elt F) Unit ℕ (UR sig nD τ) ℕ (cfgs p) c
  | ⟨0, _⟩ => fun c => dat0 (VR1 m) c
  | ⟨1, _⟩ => fun c => dat1 (VR3 m) c

abbrev 𝒱₀ : Variants := Variants.none
abbrev L : GSem nD τ sig → Finset Unit := fun _ => ∅
abbrev lv : GSem nD τ sig → Unit → ℕ := fun _ _ => 0

/-! ## The arrays at the launches' exits -/

/-- At the first launch's exit each of its arrays holds what the exit valuation names: the inputs as entered, the
    result array what the write-backs left. -/
theorem hF0 (c : Dev nD) (w : Fin cfg0.W) :
    (pdats m 0 c).arrAt w cfg0.N = Gen.V2 m (outs m) c (Pipeline.arrRef spec0 w) := by
  match w with
  | ⟨0, _⟩ =>
    exact ((dat0 (VR1 m) c).arrAt_in 0 rfl _).trans ((A_eq0 (VR1 m) c 0).trans
      (Gen.V2_of m (outs m) c (Pipeline.arrRef spec0 0) (by decide)).symm)
  | ⟨1, _⟩ =>
    exact ((dat0 (VR1 m) c).arrAt_in 1 rfl _).trans ((A_eq0 (VR1 m) c 1).trans
      (Gen.V2_of m (outs m) c (Pipeline.arrRef spec0 1) (by decide)).symm)
  | ⟨2, _⟩ =>
    show X1 m c = _
    rw [V2_eq]
    exact (Function.update_self (β := fun b : DevRef τ sig => Buf (Elt F) ((c : Thread nD τ).1, b)) _ _ _).symm

/-- Off its arrays the first launch changes nothing. -/
theorem hrest0 (c : Dev nD) (b : Ref sig .tc) (hb : b ∉ Finset.univ.image (Pipeline.arrRef spec0)) :
    Gen.V2 m (outs m) c b = Gen.V1 m c b :=
  Gen.V2_of m (outs m) c b fun hmem => hb (by
    have : b = main_v1 := by simpa using hmem
    subst this
    exact Finset.mem_image.mpr ⟨2, Finset.mem_univ _, rfl⟩)

/-- At the second launch's exit each of its arrays holds what the exit valuation names. -/
theorem hF1 (c : Dev nD) (w : Fin cfg1.W) :
    (pdats m 1 c).arrAt w cfg1.N = Gen.V4 m (outs m) c (Pipeline.arrRef spec1 w) := by
  match w with
  | ⟨0, _⟩ =>
    refine ((dat1 (VR3 m) c).arrAt_in 0 rfl _).trans ((A_eq1 (VR3 m) c 0).trans ?_)
    rw [Gen.V4_of m (outs m) c (Pipeline.arrRef spec1 0) (by decide), V3_eq]
  | ⟨1, _⟩ =>
    refine ((dat1 (VR3 m) c).arrAt_in 1 rfl _).trans ((A_eq1 (VR3 m) c 1).trans ?_)
    rw [Gen.V4_of m (outs m) c (Pipeline.arrRef spec1 1) (by decide), V3_eq]
  | ⟨2, _⟩ =>
    refine ((dat1 (VR3 m) c).arrAt_in 2 rfl _).trans ((A_eq1 (VR3 m) c 2).trans ?_)
    rw [Gen.V4_of m (outs m) c (Pipeline.arrRef spec1 2) (by decide), V3_eq]
  | ⟨3, _⟩ =>
    show X5 m c = _
    unfold Gen.V4
    rw [outs_v5]
    exact (Function.update_self (β := fun b : DevRef τ sig => Buf (Elt F) ((c : Thread nD τ).1, b)) _ _ _).symm

/-- Off its arrays the second launch changes nothing. -/
theorem hrest1 (c : Dev nD) (b : Ref sig .tc) (hb : b ∉ Finset.univ.image (Pipeline.arrRef spec1)) :
    Gen.V4 m (outs m) c b = Gen.V3 m (outs m) c b :=
  Gen.V4_of m (outs m) c b fun hmem => hb (by
    have : b = main_v5 := by simpa using hmem
    subst this
    exact Finset.mem_image.mpr ⟨3, Finset.mem_univ _, rfl⟩)

/-! ## The launches as segments -/

set_option backward.isDefEq.respectTransparency.types false in
/-- The first launch, from every unscoped buffer at the contents after the concatenation to the same with its result
    array at what the write-backs leave. -/
def reg0 : RegionSeg (pcfgs (F := F)) Gen.adm (pdats m) () defs₀ 𝒱₀ L lv 0 :=
  Cert.LibRegion.regionSegHeldA (pcfgs (F := F)) Gen.adm (pdats m) defs₀ 𝒱₀ L lv 0 launch0.win.to₀ launch0.block_pos launch0.stage_whole rfl
    (fun c => (body_obligation0 (VR1 m) c).loose) (fun _ => rfl) (fun _ => rfl) (fun _ _ => rfl) (fun _ => rfl)
    (Gen.V1 m) (Gen.V2 m (outs m))
    (fun c => Cert.LibRegion.arrBufs_split_distinct cfg0 c (pdats m 0 c) launch0.win.arr_inj launch0.arr_whole
      ((pdats m 0 c).share_full fun _ => rfl) (fun b => Gen.V1 m c b) _ (fun w => A_eq0 (VR1 m) c w))
    (fun c => Cert.LibRegion.arrBufs_join_distinct cfg0 c (pdats m 0 c) launch0.win.arr_inj launch0.arr_whole
      ((pdats m 0 c).share_full fun _ => rfl) (fun b => Gen.V2 m (outs m) c b) _ (hF0 m c))
    (hrest0 m)

set_option backward.isDefEq.respectTransparency.types false in
/-- The second launch, from every unscoped buffer at the contents after the slices and the reshape to the same with
    the program's result array at what the write-backs leave. -/
def reg1 : RegionSeg (pcfgs (F := F)) Gen.adm (pdats m) () defs₀ 𝒱₀ L lv 1 :=
  Cert.LibRegion.regionSegHeldA (pcfgs (F := F)) Gen.adm (pdats m) defs₀ 𝒱₀ L lv 1 launch1.win.to₀ launch1.block_pos launch1.stage_whole rfl
    (fun c => (body_obligation1 (VR3 m) c).loose) (fun _ => rfl) (fun _ => rfl) (fun _ _ => rfl) (fun _ => rfl)
    (Gen.V3 m (outs m)) (Gen.V4 m (outs m))
    (fun c => Cert.LibRegion.arrBufs_split_distinct cfg1 c (pdats m 1 c) launch1.win.arr_inj launch1.arr_whole
      ((pdats m 1 c).share_full fun _ => rfl) (fun b => Gen.V3 m (outs m) c b) _ (fun w => by rw [V3_eq]; exact A_eq1 (VR3 m) c w))
    (fun c => Cert.LibRegion.arrBufs_join_distinct cfg1 c (pdats m 1 c) launch1.win.arr_inj launch1.arr_whole
      ((pdats m 1 c).share_full fun _ => rfl) (fun b => Gen.V4 m (outs m) c b) _ (hF1 m c))
    (hrest1 m)

/-! ## The run -/

/-- What rides beside the buffers between the items. -/
abbrev E : Fin 3 → Dev nD → sProp 𝕄 := fun _ c => Cert.LibRegion.R c

/-- The last thread state, regrouped: the buffers and the register on one side, the empty debt on the other. -/
theorem last_link (c : Dev nD) :
    (iprop(StableHlo.held (c : Thread nD τ) (Pipeline.ucRefs τ sig) (Gen.V4 m (outs m) c) ∗ Cert.LibRegion.R c) : sProp 𝕄)
      ⊢ iprop((StableHlo.held (c : Thread nD τ) (Pipeline.ucRefs τ sig) (Gen.V4 m (outs m) c) ∗ ∃ r, prngReg c r)
          ∗ ∃ W, owes (c : Thread nD τ) (0 : CellTallies nD τ sig Unit) W) := by
  iintro ⟨Hh, Hp, HO⟩
  isplitl [Hh Hp]
  · isplitl [Hh] <;> iassumption
  iexact HO

-- the launch theorem's implicit arguments are found by unifying its conclusion with this one
set_option backward.isDefEq.respectTransparency.types false in
/-- From any memory with zero counters every weakly fair execution of the program terminates, nothing faulting, and
    every unscoped buffer ends at the last valuation: the arguments as launched, the result array at what the second
    launch's write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V4 m (outs m) c b) := by
  refine Pipeline.θ_run_regions_kit_dev (pcfgs (F := F)) Gen.adm (pdats m) () cellOf_inj emb₁ defs₀ 𝒱₀ L lv m ρ main
    (Gen.segs m (outs m) 𝒱₀ L lv (E (F := F)) () (pdats m) (reg0 m) (reg1 m))
    (fun c Q => by
      rewrite [main_chain c, Seg.run_eq_chain,
        show (Gen.segs m (outs m) 𝒱₀ L lv (E (F := F)) () (pdats m) (reg0 m) (reg1 m) c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Seg.pipes_host, Seg.pipes_region, Seg.pipes_nil]; decide) (O₀ := 0) (fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E (F := F) 0 c))
    (Tₙ := fun c => iprop(StableHlo.held (c : Thread nD τ) (Pipeline.ucRefs τ sig) (Gen.V4 m (outs m) c) ∗ ∃ r, prngReg c r))
    (hch := fun c => ⟨.rfl, .rfl, .rfl, .rfl, last_link m c⟩)
    (hinit := ?_)
    (QY := fun c s => ∀ b ∈ Pipeline.ucRefs τ sig, s.mem (((c : Thread nD τ)).1, b) = Gen.V4 m (outs m) c b)
    (hfin := fun c s' => ?_) (hQ := fun _ h => h)
  · -- the launch: the unscoped buffers are held at the launch memory; the register and the empty debt ride beside
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨⟨Hh, -⟩, HSI⟩
    unfold StableHlo.held
    imodintro
    iapply (pointsTo_read_all (Pipeline.ucRefs τ sig) (fun b => (((c : Thread nD τ)).1, b)) (Gen.V4 m (outs m) c) s')
    isplitl [Hh] <;> iassumption

/-- An unscoped TensorCore reference is among those the run holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with its post read at the result array and at the four arguments. -/
theorem run_main : θ_run defs (onTc (τ := τ) (main (F := F))) ⟨m, fun _ => 0, ρ⟩ (fun r => ∀ c : Dev nD,
      r.2.mem ((c.tc : Thread nD τ).loc main_v5) = X5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v5 (by decide))).trans (hF1 m c 3).symm,
     (h c _ (mem_uc main_arg0 (by decide))).trans (Gen.V4_main_arg0 m (outs m) c),
     (h c _ (mem_uc main_arg1 (by decide))).trans (Gen.V4_main_arg1 m (outs m) c),
     (h c _ (mem_uc main_arg2 (by decide))).trans (Gen.V4_main_arg2 m (outs m) c),
     (h c _ (mem_uc main_arg3 (by decide))).trans (Gen.V4_main_arg3 m (outs m) c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_main m ρ)

end Cert.Kernel.Fr

end
-- ==== Proof.KernelIdeal.Region0.lean ====
import proofs.«415133_j62843961475103_2_alg».proof.Proof.Gen.KernelIdeal.Launch
import proofs.«415133_j62843961475103_2_alg».proof.Proof.Gen.KernelIdeal.Skeleton
import proofs.«415133_j62843961475103_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first launch: one row tile of the activations against both weight matrices at once

The grid has eight points. Point `t` is handed rows `512 t … 512 t + 511` of the activations (window 0) and the
whole concatenated weight matrix (window 1, fetched once and kept), and leaves in the output window's buffer the
product of the two, rounded to the narrower format, which the pipeline writes back to rows `512 t …` of the
result. The body reads the output buffer once without using what it read, and stores it whole.
Everything here is stated at any float instance and at any contents `V` of the buffers when the launch is entered.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window holds its block at every point, for any proof data over `V` whose body leaves it there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window holds its block at every point, fetched there or kept from the first point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev rX0 : Rect S512x1024 := Rect.unit (s := S512x1024) ![0, 0] S512x1024.size inb_S512x1024_S512x1024_0_0
abbrev rW0 : Rect S1024x512 := Rect.unit (s := S1024x512) ![0, 0] S1024x512.size inb_S1024x512_S1024x512_0_0
abbrev rO0 : Rect S512x512 := Rect.unit (s := S512x512) ![0, 0] S512x512.size inb_S512x512_S512x512_0_0

/-! ## What the body leaves in the output window's buffer -/

/-- The one store, whole, of the product of the two loaded blocks. -/
def out0_2 (x0 : Vec F S512x1024 .f32) (x1 : Vec F S1024x512 .f32) : Vec F S512x512 .bf16 :=
  View.canon [⟨rO0, k0_pay1 (View.ld x0 rX0) (View.ld x1 rW0)⟩]

/-- The store covers the buffer. -/
theorem cover0_2 (p0 : Vec F S512x512 .bf16) (y : S512x512.Idx) :
    ∃ pc ∈ ([⟨rO0, p0⟩] : List (View.Piece (Elt F) S512x512 .bf16)), y ∈ pc.1.set :=
  View.cover_of_tiled [⟨rO0, p0⟩] S512x512.size (by rfl) y

/-! ## The body's triple -/

set_option maxHeartbeats 1000000 in
/-- On whole buffers, the inputs' at contents `x0`, `x1` and the output's at anything, the body runs to the
    continuation with the inputs' as they were and the output's at `out0_2 x0 x1`. -/
theorem sound_kernel0 (c : Dev nD) (E : Set ℕ) (i : grid0.Coords) (arg1 : Memref sig .tc .vmem S512x1024 .f32) (harg1 : arg1.IsWhole)
    (arg2 : Memref sig .tc .vmem S1024x512 .f32) (harg2 : arg2.IsWhole) (arg3 : Memref sig .tc .vmem S512x512 .bf16) (harg3 : arg3.IsWhole)
    (x0 : Vec F S512x1024 .f32) (x1 : Vec F S1024x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- After the body at point `t` each input's buffer holds its block and the output's the product of the two blocks;
    the body's invariant is the scoped buffers that are no staging buffer and the generator register; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdeal.Region1.lean ====
import proofs.«415133_j62843961475103_2_alg».proof.Proof.Gen.KernelIdeal.Launch
import proofs.«415133_j62843961475103_2_alg».proof.Proof.Gen.KernelIdeal.Skeleton
import proofs.«415133_j62843961475103_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-!
# The second launch: causal scores against the one-hot of the slot words, accumulated over key tiles

The grid has 25 × 4 × 8 points `(vj, qi, ki)`, `ki` fastest. Every point is handed the whole query projection (window
0), the whole key projection (window 1) and the whole column of slot words (window 2), each fetched once and kept.
The output window's block is rows `1024 qi …`, columns `1280 vj …` of the result; its index does not move with `ki`,
so its buffer is carried from `ki` to `ki + 1` and written back after `ki = 7`.
At `ki = 0` the body zeroes the buffer. Where key tile `ki` is not wholly after query tile `qi`
(`512 ki ≤ 1024 qi + 1023`) it then adds, to what the buffer holds, the product of the masked scaled scores of the
query rows against the 512 keys of the tile with the 0/1 matrix "key's word = column's slot number". At the other
points the body stores nothing.
Everything here is stated at any float instance and at any contents `V` of the buffers when the launch is entered.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window holds its block at every point, fetched there or kept from the first point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions over the grid -/

/-- The reset is taken exactly at the points with `ki = 0`. -/
theorem hcond1 : ∀ t : Fin cfg1.N, k1_cond1 (grid1.coords t) = 1#1 ↔ t.val % 8 = 0 :=
  (by decide +kernel : ∀ t : Fin grid1.N, k1_cond1 (grid1.coords t) = 1#1 ↔ t.val % 8 = 0)
/-- The update is taken exactly where the key tile is not wholly after the query tile: `ki ≤ 2 qi + 1`. -/
theorem hcond2 : ∀ t : Fin cfg1.N, k1_cond2 (grid1.coords t) = 1#1 ↔ t.val % 8 ≤ 2 * (t.val / 8 % 4) + 1 :=
  (by decide +kernel : ∀ t : Fin grid1.N, k1_cond2 (grid1.coords t) = 1#1 ↔ t.val % 8 ≤ 2 * (t.val / 8 % 4) + 1)
/-- In particular at every point that resets. -/
theorem hcond2_of_reset (t : Fin cfg1.N) (h0 : t.val % 8 = 0) : k1_cond2 (grid1.coords t) = 1#1 :=
  (hcond2 t).mpr (by omega)

/-! ## The body's accesses -/

/-- The query rows of tile `qi`, the key rows and the slot words of tile `ki`, and the whole output buffer. -/
abbrev rQ (i : grid1.Coords) (h2 : k1_cond2 i = 1#1) : Rect S4096x256 := Rect.unit (s := S4096x256) (k1_off1 i) S1024x256.size (k1_off1_inb i h2)
abbrev rK (i : grid1.Coords) (h2 : k1_cond2 i = 1#1) : Rect S4096x256 := Rect.unit (s := S4096x256) (k1_off2 i) S512x256.size (k1_off2_inb i h2)
abbrev rI (i : grid1.Coords) (h2 : k1_cond2 i = 1#1) : Rect S4096x1 := Rect.unit (s := S4096x1) (k1_off3 i) S512x1.size (k1_off3_inb i h2)
abbrev rO1 : Rect S1024x1280 := Rect.unit (s := S1024x1280) ![0, 0] S1024x1280.size inb_S1024x1280_S1024x1280_0_0

/-! ## What the body leaves in the output window's buffer -/

/-- One update: what the buffer held, plus the tile's product, from the three input windows' contents. -/
def step1 (i : grid1.Coords) (h2 : k1_cond2 i = 1#1) (x0 x1 : Vec F S4096x256 .bf16) (x2 : Vec F S4096x1 .i32)
    (prev : Vec F S1024x1280 .f32) : Vec F S1024x1280 .f32 :=
  k1_pay2 (BitVec.ofNat 32 (i 0).val) (BitVec.ofNat 32 (i 1).val) (BitVec.ofNat 32 (i 2).val)
    (View.ld x0 (rQ i h2)) (View.ld x1 (rK i h2)) (View.ld x2 (rI i h2)) prev

/-- THE ACCUMULATION. What the output window's buffer holds after the body at position `n`: at a point that resets,
    one update of the zero block; at a later point that updates, one update of what the point before left; at a
    point that stores nothing, what the point before left. -/
def outsAt1 (c : Dev nD) : (n : ℕ) → n < cfg1.N → Vec F S1024x1280 .f32
  | 0, hn => step1 (grid1.coords ⟨0, hn⟩) (hcond2_of_reset ⟨0, hn⟩ (Nat.zero_mod _)) (iblk1 V c 0 ⟨0, hn⟩) (iblk1 V c 1 ⟨0, hn⟩) (iblk1 V c 2 ⟨0, hn⟩) (k1_pay1 (F := F))
  | n + 1, hn =>
    if h0 : (n + 1) % 8 = 0 then
      step1 (grid1.coords ⟨n + 1, hn⟩) (hcond2_of_reset ⟨n + 1, hn⟩ h0) (iblk1 V c 0 ⟨n + 1, hn⟩) (iblk1 V c 1 ⟨n + 1, hn⟩) (iblk1 V c 2 ⟨n + 1, hn⟩) (k1_pay1 (F := F))
    else if h2 : k1_cond2 (grid1.coords ⟨n + 1, hn⟩) = 1#1 then
      step1 (grid1.coords ⟨n + 1, hn⟩) h2 (iblk1 V c 0 ⟨n + 1, hn⟩) (iblk1 V c 1 ⟨n + 1, hn⟩) (iblk1 V c 2 ⟨n + 1, hn⟩) (outsAt1 c n (Nat.lt_of_succ_lt hn))
    else outsAt1 c n (Nat.lt_of_succ_lt hn)

/-- At a point that resets. -/
theorem outsAt1_reset (c : Dev nD) (t : Fin cfg1.N) (h0 : t.val % 8 = 0) :
    outsAt1 V c t.val t.isLt = step1 (grid1.coords t) (hcond2_of_reset t h0) (iblk1 V c 0 t) (iblk1 V c 1 t) (iblk1 V c 2 t) (k1_pay1 (F := F)) := by
  obtain ⟨n, hn⟩ := t
  cases n with
  | zero => exact rfl
  | succ n => exact (dif_pos h0).trans rfl

/-- At a later point that updates. -/
theorem outsAt1_acc (c : Dev nD) (t : Fin cfg1.N) (h0 : ¬t.val % 8 = 0) (h2 : k1_cond2 (grid1.coords t) = 1#1) :
    outsAt1 V c t.val t.isLt = step1 (grid1.coords t) h2 (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h2).trans rfl)

/-- At a point that stores nothing. -/
theorem outsAt1_idle (c : Dev nD) (t : Fin cfg1.N) (h0 : ¬t.val % 8 = 0) (h2 : ¬k1_cond2 (grid1.coords t) = 1#1) :
    outsAt1 V c t.val t.isLt = outsAt1 V c (t.val - 1) (Nat.lt_of_le_of_lt (Nat.sub_le _ _) t.isLt) := by
  obtain ⟨n, hn⟩ := t
  cases n with
  | zero => exact absurd (Nat.zero_mod _) h0
  | succ n => exact (dif_neg h0).trans ((dif_neg h2).trans rfl)

/-! ## The body's triples, one for each case of its two conditions -/

set_option maxHeartbeats 1000000 in
/-- At a point that resets: on whole buffers, the inputs' at contents `x0`, `x1`, `x2` and the output's at anything,
    the body runs to the continuation with the inputs' as they were and the output's at one update of the zero block. -/
theorem sound_kernel1_A (c : Dev nD) (E : Set ℕ) (i : grid1.Coords)
    (arg3 : Memref sig .tc .vmem S4096x256 .bf16) (harg3 : arg3.IsWhole)
    (arg4 : Memref sig .tc .vmem S4096x256 .bf16) (harg4 : arg4.IsWhole)
    (arg5 : Memref sig .tc .vmem S4096x1 .i32) (harg5 : arg5.IsWhole)
    (arg6 : Memref sig .tc .vmem S1024x1280 .f32) (harg6 : arg6.IsWhole)
    (hc1 : k1_cond1 i = 1#1) (hc2 : k1_cond2 i = 1#1)
    (x0 x1 : Vec F S4096x256 .bf16) (x2 : Vec F S4096x1 .i32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (step1 i hc2 x0 x1 x2 (k1_pay1 (F := F)))) -∗ K ⟨⟩))
      ⊢ wp frame (wpE (defs₀ (F := F)) Variants.none c none) E (cc1_kernel i arg3 harg3 arg4 harg4 arg5 harg5 arg6 harg6) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self,
    View.mem_set_unit_zero (by funext a; fin_cases a <;> rfl) inb_S1024x1280_S1024x1280_0_0 y⟩)]
  sl_unfold_run_names
  rw [View.canon_cons_unit_zero (by funext a; fin_cases a <;> rfl) inb_S1024x1280_S1024x1280_0_0]
  unfold step1
  rw [View.readAt_eq_ld, View.readAt_eq_ld, View.readAt_eq_ld,
    View.readCov_unit_zero arg6.view (by funext a; fin_cases a <;> rfl) inb_S1024x1280_S1024x1280_0_0]

set_option maxHeartbeats 1000000 in
/-- At a point that updates without resetting: on whole buffers, the inputs' at contents `x0`, `x1`, `x2` and the
    output's at `xo`, the body runs to the continuation with the inputs' as they were and the output's one update on. -/
theorem sound_kernel1_B (c : Dev nD) (E : Set ℕ) (i : grid1.Coords)
    (arg3 : Memref sig .tc .vmem S4096x256 .bf16) (harg3 : arg3.IsWhole)
    (arg4 : Memref sig .tc .vmem S4096x256 .bf16) (harg4 : arg4.IsWhole)
    (arg5 : Memref sig .tc .vmem S4096x1 .i32) (harg5 : arg5.IsWhole)
    (arg6 : Memref sig .tc .vmem S1024x1280 .f32) (harg6 : arg6.IsWhole)
    (hc1 : ¬k1_cond1 i = 1#1) (hc2 : k1_cond2 i = 1#1)
    (x0 x1 : Vec F S4096x256 .bf16) (x2 : Vec F S4096x1 .i32) (xo : Vec F S1024x1280 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo
        ∗ (iprop(owns (c : Thread nD τ) arg3 fullShare x0 ∗ owns (c : Thread nD τ) arg4 fullShare x1 ∗ owns (c : Thread nD τ) arg5 fullShare x2
            ∗ owns (c : Thread nD τ) arg6 fullShare (step1 i hc2 x0 x1 x2 xo)) -∗ K ⟨⟩))
      ⊢ wp frame (wpE (defs₀ (F := F)) Variants.none c none) E (cc1_kernel i arg3 harg3 arg4 harg4 arg5 harg5 arg6 harg6) K := by
  simp only [cc1_kernel_eq_skeleton]; unfold cc1_kernel_skel
  simp only [k1_part1_eq_skeleton]
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _,
    View.mem_set_unit_zero (by funext a; fin_cases a <;> rfl) inb_S1024x1280_S1024x1280_0_0 y⟩)]
  sl_unfold_run_names
  rw [View.canon_unit_zero (by funext a; fin_cases a <;> rfl) inb_S1024x1280_S1024x1280_0_0]
  unfold step1
  rw [View.readAt_eq_ld, View.readAt_eq_ld, View.readAt_eq_ld, View.readAt_eq_ld,
    View.ld_unit_zero (by funext a; fin_cases a <;> rfl) inb_S1024x1280_S1024x1280_0_0]

/-- At a point that neither resets nor updates the body touches nothing: it runs to the continuation from
    whatever the continuation needs. -/
theorem sound_kernel1_C (c : Dev nD) (E : Set ℕ) (i : grid1.Coords)
    (arg3 : Memref sig .tc .vmem S4096x256 .bf16) (harg3 : arg3.IsWhole)
    (arg4 : Memref sig .tc .vmem S4096x256 .bf16) (harg4 : arg4.IsWhole)
    (arg5 : Memref sig .tc .vmem S4096x1 .i32) (harg5 : arg5.IsWhole)
    (arg6 : Memref sig .tc .vmem S1024x1280 .f32) (harg6 : arg6.IsWhole)
    (hc1 : ¬k1_cond1 i = 1#1) (hc2 : ¬k1_cond2 i = 1#1) (K : PUnit → sProp 𝕄) :
    K ⟨⟩ ⊢ wp frame (wpE (defs₀ (F := F)) Variants.none c none) E (cc1_kernel i arg3 harg3 arg4 harg4 arg5 harg5 arg6 harg6) K := by
  simp only [cc1_kernel_eq_skeleton]; unfold cc1_kernel_skel
  iintro HK
  sl_exec (disch := first | exact hc1 | exact hc2)
  sl_step
  iexact HK

/-! ## The proof data -/

/-- After the body at point `t` each input's buffer holds its block and the output's the accumulation; the body's
    invariant is the scoped buffers that are no staging buffer and the generator register; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point where the body stores into the output window's buffer, the next point finds there all the body
    left: the window's blocks are never cut. -/
theorem kept1_3 (c : Dev nD) (t : Fin cfg1.N) (d) : (dat1 V c).kept 3 t d = outsAt1 V c t.val t.isLt := by
  unfold Dat.kept
  exact ((Pipeline.fill_of_clip_none (cfg := cfg1) 3 (cfg1.grid.coords t) (fun _ => rfl) d ((dat1 V c).after 3 t) _).trans
    ((cfg1.win 3).fill_cut _ _)).trans (after1_3 V c t)

/-- What the body leaves in the output window's buffer at a point that is not written back, given what it found
    there: the accumulation at that point, whether it stored or not. -/
theorem left1_3 (c : Dev nD) (t : Fin cfg1.N) (d)
    (hprev : ¬t.val % 8 = 0 → (dat1 V c).before 3 t d = outsAt1 V c (t.val - 1) (Nat.lt_of_le_of_lt (Nat.sub_le _ _) t.isLt)) :
    (dat1 V c).left 3 t d = outsAt1 V c t.val t.isLt := by
  unfold Dat.left
  split
  · next hi =>
    have hi' : (!(k1_cond1 (grid1.coords t) == 1#1) && !(k1_cond2 (grid1.coords t) == 1#1)) = true := hi
    have h1 : ¬k1_cond1 (grid1.coords t) = 1#1 := fun h => by simp [h] at hi'
    have h2 : ¬k1_cond2 (grid1.coords t) = 1#1 := fun h => by simp [h] at hi'
    have h0 : ¬t.val % 8 = 0 := fun h => h1 ((hcond1 t).mpr h)
    rw [hprev h0, outsAt1_idle V c t h0 h2]
  · exact kept1_3 V c t d

/-- The induction behind `before1_3_acc`, over the position. -/
theorem before1_3_acc_aux (c : Dev nD) : ∀ (n : ℕ) (t : Fin cfg1.N), t.val = n → ¬t.val % 8 = 0 → ∀ d,
    (dat1 V c).before 3 t d = outsAt1 V c (t.val - 1) (Nat.lt_of_le_of_lt (Nat.sub_le _ _) t.isLt) := by
  intro n
  induction n using Nat.strong_induction_on with
  | _ n ih =>
    intro t htn h0 d
    have hN : t.val < 800 := lt_of_lt_of_eq t.isLt (show cfg1.N = 800 from N_1)
    have ht : t.val ≠ 0 := fun h => h0 (by rw [h])
    have hfl : (cfg1.win 3).flush ⟨t.val - 1, Nat.lt_of_le_of_lt (Nat.sub_le _ _) t.isLt⟩ = false :=
      Bool.eq_false_iff.mpr fun h => by have := (flush1_3 _).mp h; dsimp only at this; omega
    rw [(dat1 V c).before_of_pos 3 t ht ((cfg1.win 3).fetch_out rfl t), hfl, if_neg Bool.false_ne_true]
    exact left1_3 V c ⟨t.val - 1, Nat.lt_of_le_of_lt (Nat.sub_le _ _) t.isLt⟩ d
      (fun h => ih (t.val - 1) (by omega) ⟨t.val - 1, Nat.lt_of_le_of_lt (Nat.sub_le _ _) t.isLt⟩ rfl h d)

/-- At a point that does not reset, the output window's buffer holds what the point before left: it was not written
    back between, and a point that stores nothing hands on what it found. -/
theorem before1_3_acc (c : Dev nD) (t : Fin cfg1.N) (h0 : ¬t.val % 8 = 0) (d) :
    (dat1 V c).before 3 t d = outsAt1 V c (t.val - 1) (Nat.lt_of_le_of_lt (Nat.sub_le _ _) t.isLt) := by
  exact before1_3_acc_aux V c t.val t rfl h0 d

/-! ## The output window's post, case by case -/

/-- At a point where the body stores into the output window's buffer, the obligation asks for what it leaves there. -/
theorem leavesExact1_3_live (c : Dev nD) (t : Fin cfg1.N) (hi : cfg1.idle 3 (cfg1.grid.coords t) = false) :
    (dat1 V c).leavesExact 3 t = owns (c : Thread nD τ) (st1_3 t) fullShare ((dat1 V c).after 3 t) := by
  unfold Dat.leavesExact
  split
  · next h => exact Bool.noConfusion (h.symm.trans hi)
  · rfl

/-- At a point that is written back, too, whether the body stored or not. -/
theorem leavesExact1_3_flush (c : Dev nD) (t : Fin cfg1.N) (hf : (cfg1.win 3).flush t = true) :
    (dat1 V c).leavesExact 3 t = owns (c : Thread nD τ) (st1_3 t) fullShare ((dat1 V c).after 3 t) := by
  unfold Dat.leavesExact
  split
  · split
    · next h => exact Bool.noConfusion (h.symm.trans hf)
    · rfl
  · rfl

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the inputs' buffers at their blocks; the output's at the accumulation, or, where the
    body stores nothing and the pipeline does not write the block back, at what it was handed. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t)

set_option maxHeartbeats 1000000 in
/-- The body at any point, by the three cases of its two conditions: a reset and update of a buffer handed over at
    anything; an update of what the point before left; nothing, the buffer going back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2]
  by_cases h0 : t.val % 8 = 0
  · have hc1 : k1_cond1 (grid1.coords t) = 1#1 := (hcond1 t).mpr h0
    have hc2 : k1_cond2 (grid1.coords t) = 1#1 := hcond2_of_reset t h0
    have hi : cfg1.idle 3 (cfg1.grid.coords t) = false := by
      show (!(k1_cond1 (grid1.coords t) == 1#1) && !(k1_cond2 (grid1.coords t) == 1#1)) = false; simp [hc1]
    rw [leavesExact1_3_live V c t hi, after1_3, outsAt1_reset V c t h0]
    iintro ⟨HΦ, Ho, ⟨%d0, H0⟩, ⟨%d1, H1⟩, ⟨%d2, H2⟩, ⟨%d3, H3⟩⟩
    iapply (sound_kernel1_A c Set.univ (grid1.coords t) _ _ _ _ _ _ _ _ hc1 hc2 (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have hc1 : ¬k1_cond1 (grid1.coords t) = 1#1 := fun h => h0 ((hcond1 t).mp h)
    by_cases h2 : k1_cond2 (grid1.coords t) = 1#1
    · have hi : cfg1.idle 3 (cfg1.grid.coords t) = false := by
        show (!(k1_cond1 (grid1.coords t) == 1#1) && !(k1_cond2 (grid1.coords t) == 1#1)) = false; simp [h2]
      rw [leavesExact1_3_live V c t hi, after1_3, outsAt1_acc V c t h0 h2]
      simp only [before1_3_acc V c t h0]
      iintro ⟨HΦ, Ho, ⟨%d0, H0⟩, ⟨%d1, H1⟩, ⟨%d2, H2⟩, ⟨%d3, H3⟩⟩
      iapply (sound_kernel1_B c Set.univ (grid1.coords t) _ _ _ _ _ _ _ _ hc1 h2 (iblk1 V c 0 t) (iblk1 V c 1 t) (iblk1 V c 2 t)
        (outsAt1 V c (t.val - 1) (Nat.lt_of_le_of_lt (Nat.sub_le _ _) t.isLt)) _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · have hi : cfg1.idle 3 (cfg1.grid.coords t) = true := by
        show (!(k1_cond1 (grid1.coords t) == 1#1) && !(k1_cond2 (grid1.coords t) == 1#1)) = true; simp [hc1, h2]
      by_cases h7 : t.val % 8 = 7
      · rw [leavesExact1_3_flush V c t ((flush1_3 t).mpr h7), after1_3, outsAt1_idle V c t h0 h2]
        simp only [before1_3_acc V c t h0]
        iintro ⟨HΦ, Ho, ⟨%d0, H0⟩, ⟨%d1, H1⟩, ⟨%d2, H2⟩, ⟨%d3, H3⟩⟩
        iapply (sound_kernel1_C c Set.univ (grid1.coords t) _ _ _ _ _ _ _ _ hc1 h2 _)
        isplitl [HΦ]; · iexact HΦ
        isplitl [Ho]; · iexact Ho
        isplitl [H0]; · iexact H0
        isplitl [H1]; · iexact H1
        isplitl [H2]; · iexact H2
        iexact H3
      · rw [Dat.leavesExact_idle (dat1 V c) 3 t hi (Bool.eq_false_iff.mpr fun h => h7 ((flush1_3 t).mp h))]
        iintro ⟨HΦ, Ho, ⟨%d0, H0⟩, ⟨%d1, H1⟩, ⟨%d2, H2⟩, ⟨%d3, H3⟩⟩
        iapply (sound_kernel1_C c Set.univ (grid1.coords t) _ _ _ _ _ _ _ _ hc1 h2 _)
        isplitl [HΦ]; · iexact HΦ
        isplitl [Ho]; · iexact Ho
        isplitl [H0]; · iexact H0
        isplitl [H1]; · iexact H1
        isplitl [H2]; · iexact H2
        iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KernelIdeal.Launch.lean ====
import proofs.«415133_j62843961475103_2_alg».proof.Proof.Gen.KernelIdeal.Regions
import proofs.«415133_j62843961475103_2_alg».proof.Proof.KernelIdeal.Region0
import proofs.«415133_j62843961475103_2_alg».proof.Proof.KernelIdeal.Region1
import proofs.«415133_j62843961475103_2_alg».proof.Proof.LibRegion
import Idealize.ShloMosaic.Lib.Pipeline.Kit

/-!
# The whole run: a host line, the first launch, three host lines, the second launch

Between two items every unscoped buffer of the core is held whole at a valuation: the launch contents, then each
host stretch's operations applied, then after a launch its output array at what the pipeline's write-backs leave
(`Dat.arrAt` at the last point) and every other buffer as entered. Beside the buffers ride the generator register
and the core owing nothing. Each launch is a segment from its entry valuation to its exit valuation, built from its
body obligation; the run's last valuation is read back against the final memory.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the launches' entries and what the launches leave -/

/-- The TensorCore's buffers when the first launch is entered: the launch memory after the concatenation. -/
abbrev VR1 : (c : Dev nD) → (b : Ref sig .tc) → Buf (Elt F) ((c : Thread nD τ).loc b) := fun c b => Gen.V1 m c b

/-- What the first launch leaves in its result array. -/
def X1 (c : Dev nD) : Buf (Elt F) ((c : Thread nD τ).loc main_v1) := (dat0 (VR1 m) c).arrAt 2 cfg0.N

/-- The buffers after the first launch, -/
abbrev W2 (c : Dev nD) : Valuation τ sig (Elt F) := Function.update (Gen.V1 m c) main_v1 (X1 m c)
/-- and after the two slices and the reshape that follow it: the second launch's entry. -/
abbrev W3 (c : Dev nD) : Valuation τ sig (Elt F) := StableHlo.after hostOps1 (W2 m c)
abbrev VR3 : (c : Dev nD) → (b : Ref sig .tc) → Buf (Elt F) ((c : Thread nD τ).loc b) := fun c b => W3 m c b

/-- What the second launch leaves in the program's result array. -/
def X5 (c : Dev nD) : Buf (Elt F) ((c : Thread nD τ).loc main_v5) := (dat1 (VR3 m) c).arrAt 3 cfg1.N

/-- What the launches leave, as the table the valuations between the items are written over. -/
def outs : Gen.Outs (F := F) := fun _ r c =>
  if h : r = main_v1 then h ▸ X1 m c else if h : r = main_v5 then h ▸ X5 m c else Gen.V0 m c r

theorem outs_v1 (j : ℕ) (c : Dev nD) : outs m j main_v1 c = X1 m c := by
  unfold outs; rw [dif_pos rfl]
theorem outs_v5 (j : ℕ) (c : Dev nD) : outs m j main_v5 c = X5 m c := by
  unfold outs; rw [dif_neg (by decide), dif_pos rfl]

theorem V2_eq (c : Dev nD) : Gen.V2 m (outs m) c = W2 m c := by
  unfold Gen.V2 W2; rw [outs_v1]
theorem V3_eq (c : Dev nD) : Gen.V3 m (outs m) c = W3 m c := by
  unfold Gen.V3 W3; rw [V2_eq]

/-! ## The proof data of the two launches -/

/-- Each launch's proof data at its entry contents. -/
def pdats : (p : Fin 2) → (c : Dev nD) → Dat τ (Elt F) Unit ℕ (UR sig nD τ) ℕ (cfgs p) c
  | ⟨0, _⟩ => fun c => dat0 (VR1 m) c
  | ⟨1, _⟩ => fun c => dat1 (VR3 m) c

abbrev 𝒱₀ : Variants := Variants.none
abbrev L : GSem nD τ sig → Finset Unit := fun _ => ∅
abbrev lv : GSem nD τ sig → Unit → ℕ := fun _ _ => 0

/-! ## The arrays at the launches' exits -/

/-- At the first launch's exit each of its arrays holds what the exit valuation names: the inputs as entered, the
    result array what the write-backs left. -/
theorem hF0 (c : Dev nD) (w : Fin cfg0.W) :
    (pdats m 0 c).arrAt w cfg0.N = Gen.V2 m (outs m) c (Pipeline.arrRef spec0 w) := by
  match w with
  | ⟨0, _⟩ =>
    exact ((dat0 (VR1 m) c).arrAt_in 0 rfl _).trans ((A_eq0 (VR1 m) c 0).trans
      (Gen.V2_of m (outs m) c (Pipeline.arrRef spec0 0) (by decide)).symm)
  | ⟨1, _⟩ =>
    exact ((dat0 (VR1 m) c).arrAt_in 1 rfl _).trans ((A_eq0 (VR1 m) c 1).trans
      (Gen.V2_of m (outs m) c (Pipeline.arrRef spec0 1) (by decide)).symm)
  | ⟨2, _⟩ =>
    show X1 m c = _
    rw [V2_eq]
    exact (Function.update_self (β := fun b : DevRef τ sig => Buf (Elt F) ((c : Thread nD τ).1, b)) _ _ _).symm

/-- Off its arrays the first launch changes nothing. -/
theorem hrest0 (c : Dev nD) (b : Ref sig .tc) (hb : b ∉ Finset.univ.image (Pipeline.arrRef spec0)) :
    Gen.V2 m (outs m) c b = Gen.V1 m c b :=
  Gen.V2_of m (outs m) c b fun hmem => hb (by
    have : b = main_v1 := by simpa using hmem
    subst this
    exact Finset.mem_image.mpr ⟨2, Finset.mem_univ _, rfl⟩)

/-- At the second launch's exit each of its arrays holds what the exit valuation names. -/
theorem hF1 (c : Dev nD) (w : Fin cfg1.W) :
    (pdats m 1 c).arrAt w cfg1.N = Gen.V4 m (outs m) c (Pipeline.arrRef spec1 w) := by
  match w with
  | ⟨0, _⟩ =>
    refine ((dat1 (VR3 m) c).arrAt_in 0 rfl _).trans ((A_eq1 (VR3 m) c 0).trans ?_)
    rw [Gen.V4_of m (outs m) c (Pipeline.arrRef spec1 0) (by decide), V3_eq]
  | ⟨1, _⟩ =>
    refine ((dat1 (VR3 m) c).arrAt_in 1 rfl _).trans ((A_eq1 (VR3 m) c 1).trans ?_)
    rw [Gen.V4_of m (outs m) c (Pipeline.arrRef spec1 1) (by decide), V3_eq]
  | ⟨2, _⟩ =>
    refine ((dat1 (VR3 m) c).arrAt_in 2 rfl _).trans ((A_eq1 (VR3 m) c 2).trans ?_)
    rw [Gen.V4_of m (outs m) c (Pipeline.arrRef spec1 2) (by decide), V3_eq]
  | ⟨3, _⟩ =>
    show X5 m c = _
    unfold Gen.V4
    rw [outs_v5]
    exact (Function.update_self (β := fun b : DevRef τ sig => Buf (Elt F) ((c : Thread nD τ).1, b)) _ _ _).symm

/-- Off its arrays the second launch changes nothing. -/
theorem hrest1 (c : Dev nD) (b : Ref sig .tc) (hb : b ∉ Finset.univ.image (Pipeline.arrRef spec1)) :
    Gen.V4 m (outs m) c b = Gen.V3 m (outs m) c b :=
  Gen.V4_of m (outs m) c b fun hmem => hb (by
    have : b = main_v5 := by simpa using hmem
    subst this
    exact Finset.mem_image.mpr ⟨3, Finset.mem_univ _, rfl⟩)

/-! ## The launches as segments -/

set_option backward.isDefEq.respectTransparency.types false in
/-- The first launch, from every unscoped buffer at the contents after the concatenation to the same with its result
    array at what the write-backs leave. -/
def reg0 : RegionSeg (pcfgs (F := F)) Gen.adm (pdats m) () defs₀ 𝒱₀ L lv 0 :=
  Cert.LibRegion.regionSegHeldA (pcfgs (F := F)) Gen.adm (pdats m) defs₀ 𝒱₀ L lv 0 launch0.win.to₀ launch0.block_pos launch0.stage_whole rfl
    (fun c => (body_obligation0 (VR1 m) c).loose) (fun _ => rfl) (fun _ => rfl) (fun _ _ => rfl) (fun _ => rfl)
    (Gen.V1 m) (Gen.V2 m (outs m))
    (fun c => Cert.LibRegion.arrBufs_split_distinct cfg0 c (pdats m 0 c) launch0.win.arr_inj launch0.arr_whole
      ((pdats m 0 c).share_full fun _ => rfl) (fun b => Gen.V1 m c b) _ (fun w => A_eq0 (VR1 m) c w))
    (fun c => Cert.LibRegion.arrBufs_join_distinct cfg0 c (pdats m 0 c) launch0.win.arr_inj launch0.arr_whole
      ((pdats m 0 c).share_full fun _ => rfl) (fun b => Gen.V2 m (outs m) c b) _ (hF0 m c))
    (hrest0 m)

set_option backward.isDefEq.respectTransparency.types false in
/-- The second launch, from every unscoped buffer at the contents after the slices and the reshape to the same with
    the program's result array at what the write-backs leave. -/
def reg1 : RegionSeg (pcfgs (F := F)) Gen.adm (pdats m) () defs₀ 𝒱₀ L lv 1 :=
  Cert.LibRegion.regionSegHeldA (pcfgs (F := F)) Gen.adm (pdats m) defs₀ 𝒱₀ L lv 1 launch1.win.to₀ launch1.block_pos launch1.stage_whole rfl
    (fun c => (body_obligation1 (VR3 m) c).loose) (fun _ => rfl) (fun _ => rfl) (fun _ _ => rfl) (fun _ => rfl)
    (Gen.V3 m (outs m)) (Gen.V4 m (outs m))
    (fun c => Cert.LibRegion.arrBufs_split_distinct cfg1 c (pdats m 1 c) launch1.win.arr_inj launch1.arr_whole
      ((pdats m 1 c).share_full fun _ => rfl) (fun b => Gen.V3 m (outs m) c b) _ (fun w => by rw [V3_eq]; exact A_eq1 (VR3 m) c w))
    (fun c => Cert.LibRegion.arrBufs_join_distinct cfg1 c (pdats m 1 c) launch1.win.arr_inj launch1.arr_whole
      ((pdats m 1 c).share_full fun _ => rfl) (fun b => Gen.V4 m (outs m) c b) _ (hF1 m c))
    (hrest1 m)

/-! ## The run -/

/-- What rides beside the buffers between the items. -/
abbrev E : Fin 3 → Dev nD → sProp 𝕄 := fun _ c => Cert.LibRegion.R c

/-- The last thread state, regrouped: the buffers and the register on one side, the empty debt on the other. -/
theorem last_link (c : Dev nD) :
    (iprop(StableHlo.held (c : Thread nD τ) (Pipeline.ucRefs τ sig) (Gen.V4 m (outs m) c) ∗ Cert.LibRegion.R c) : sProp 𝕄)
      ⊢ iprop((StableHlo.held (c : Thread nD τ) (Pipeline.ucRefs τ sig) (Gen.V4 m (outs m) c) ∗ ∃ r, prngReg c r)
          ∗ ∃ W, owes (c : Thread nD τ) (0 : CellTallies nD τ sig Unit) W) := by
  iintro ⟨Hh, Hp, HO⟩
  isplitl [Hh Hp]
  · isplitl [Hh] <;> iassumption
  iexact HO

-- the launch theorem's implicit arguments are found by unifying its conclusion with this one
set_option backward.isDefEq.respectTransparency.types false in
/-- From any memory with zero counters every weakly fair execution of the program terminates, nothing faulting, and
    every unscoped buffer ends at the last valuation: the arguments as launched, the result array at what the second
    launch's write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V4 m (outs m) c b) := by
  refine Pipeline.θ_run_regions_kit_dev (pcfgs (F := F)) Gen.adm (pdats m) () cellOf_inj emb₁ defs₀ 𝒱₀ L lv m ρ main
    (Gen.segs m (outs m) 𝒱₀ L lv (E (F := F)) () (pdats m) (reg0 m) (reg1 m))
    (fun c Q => by
      rewrite [main_chain c, Seg.run_eq_chain,
        show (Gen.segs m (outs m) 𝒱₀ L lv (E (F := F)) () (pdats m) (reg0 m) (reg1 m) c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Seg.pipes_host, Seg.pipes_region, Seg.pipes_nil]; decide) (O₀ := 0) (fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E (F := F) 0 c))
    (Tₙ := fun c => iprop(StableHlo.held (c : Thread nD τ) (Pipeline.ucRefs τ sig) (Gen.V4 m (outs m) c) ∗ ∃ r, prngReg c r))
    (hch := fun c => ⟨.rfl, .rfl, .rfl, .rfl, last_link m c⟩)
    (hinit := ?_)
    (QY := fun c s => ∀ b ∈ Pipeline.ucRefs τ sig, s.mem (((c : Thread nD τ)).1, b) = Gen.V4 m (outs m) c b)
    (hfin := fun c s' => ?_) (hQ := fun _ h => h)
  · -- the launch: the unscoped buffers are held at the launch memory; the register and the empty debt ride beside
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨⟨Hh, -⟩, HSI⟩
    unfold StableHlo.held
    imodintro
    iapply (pointsTo_read_all (Pipeline.ucRefs τ sig) (fun b => (((c : Thread nD τ)).1, b)) (Gen.V4 m (outs m) c) s')
    isplitl [Hh] <;> iassumption

/-- An unscoped TensorCore reference is among those the run holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with its post read at the result array and at the four arguments. -/
theorem run_main : θ_run defs (onTc (τ := τ) (main (F := F))) ⟨m, fun _ => 0, ρ⟩ (fun r => ∀ c : Dev nD,
      r.2.mem ((c.tc : Thread nD τ).loc main_v5) = X5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v5 (by decide))).trans (hF1 m c 3).symm,
     (h c _ (mem_uc main_arg0 (by decide))).trans (Gen.V4_main_arg0 m (outs m) c),
     (h c _ (mem_uc main_arg1 (by decide))).trans (Gen.V4_main_arg1 m (outs m) c),
     (h c _ (mem_uc main_arg2 (by decide))).trans (Gen.V4_main_arg2 m (outs m) c),
     (h c _ (mem_uc main_arg3 (by decide))).trans (Gen.V4_main_arg3 m (outs m) c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_main m ρ)

end Cert.KernelIdeal.Fr

end
-- ==== Proof.KernelIdeal.PayIdx.lean ====
import proofs.«415133_j62843961475103_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

/-!
# The kernels' arithmetic, entry by entry, over the extended reals

Over the extended reals a change of float format is the identity and a matrix product into a zero accumulator is
the plain sum of products. So the first launch's payload at `(a, b)` is the inner product of row `a` of the
activations' tile with column `b` of the weights; the second launch's reset payload is zero everywhere; and its
update payload at `(a, b)` is what the buffer held there plus, over the 512 keys `j` of the tile, the masked scaled
score of query row `a` against key `j` (kept where the key's position `512 ki + j` is not after the query's
`1024 qi + a`) times 1 or 0 as the key's slot word is or is not the column's slot number `1280 vj + b`.
-/

noncomputable section

open scoped BigOperators

namespace Cert.KernelIdeal.Val

open Cert.KernelIdeal Cert.KernelIdeal.Gen Idealize.ShloMosaic Idealize.ShloMosaic.ValueIdx

/-! ## The three matrix products, read at an entry -/

/-! ### The projection: a `512 × 1024` tile against the `1024 × 512` weights -/

theorem lhs_proj_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl
theorem lhs_proj_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_proj_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_proj_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- The product into a zero accumulator, at `(a, b)`: row `a` of the left operand against column `b` of the right. -/
theorem matmul_proj_apply {φ₁ φ₂ : FTy} (x : FVec Ideal S512x1024 φ₁) (y : FVec Ideal S1024x512 φ₂) (a : Fin 512) (b : Fin 512) :
    matmul dot_S512x1024_S1024x512_S512x512_1_0_0_1_n_n none x y (constant S512x512 .f32 0x00000000#32) (ix2 a b)
      = ∑ k : Fin 1024, x (ix2 a k) * y (ix2 k b) := by
  refine (Ideal.matmul_constant_zero_apply dot_S512x1024_S1024x512_S512x512_1_0_0_1_n_n none x y (ix2 a b)).trans ?_
  rw [← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 a b) ((contrEquiv1 dot_S512x1024_S1024x512_S512x512_1_0_0_1_n_n 1024 rfl rfl).symm k) = ix2 a k :=
    funext fun c => Fin.ext (by
      match c with
      | ⟨0, _⟩ => exact lhs_proj_0 _ _
      | ⟨1, _⟩ => exact (lhs_proj_1 _ _).trans hk)
  have er : dot_S512x1024_S1024x512_S512x512_1_0_0_1_n_n.rhsIdx (ix2 a b) ((contrEquiv1 dot_S512x1024_S1024x512_S512x512_1_0_0_1_n_n 1024 rfl rfl).symm k) = ix2 k b :=
    funext fun c => Fin.ext (by
      match c with
      | ⟨0, _⟩ => exact (rhs_proj_0 _ _).trans hk
      | ⟨1, _⟩ => exact rhs_proj_1 _ _)
  rw [el, er]

/-! ### The scores: `1024` query rows against `512` transposed key rows -/

theorem lhs_score_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide),
    dif_pos (show (0 : Fin S1024x256.rank) ∈ dot_S1024x256_S256x512_S1024x512_1_0_0_1_n_n.lhsNonContracting by decide)]
  rfl
theorem lhs_score_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem rhs_score_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem rhs_score_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide),
    dif_pos (show (1 : Fin S256x512.rank) ∈ dot_S1024x256_S256x512_S1024x512_1_0_0_1_n_n.rhsNonContracting by decide)]
  rfl

/-- The product into a zero accumulator, at `(a, b)`: row `a` of the left operand against column `b` of the right. -/
theorem matmul_score_apply {φ₁ φ₂ : FTy} (x : FVec Ideal S1024x256 φ₁) (y : FVec Ideal S256x512 φ₂) (a : Fin 1024) (b : Fin 512) :
    matmul dot_S1024x256_S256x512_S1024x512_1_0_0_1_n_n none x y (constant S1024x512 .f32 0x00000000#32) (ix2 a b)
      = ∑ k : Fin 256, x (ix2 a k) * y (ix2 k b) := by
  refine (Ideal.matmul_constant_zero_apply dot_S1024x256_S256x512_S1024x512_1_0_0_1_n_n none x y (ix2 a b)).trans ?_
  rw [← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 a b) ((contrEquiv1 dot_S1024x256_S256x512_S1024x512_1_0_0_1_n_n 256 rfl rfl).symm k) = ix2 a k :=
    funext fun c => Fin.ext (by
      match c with
      | ⟨0, _⟩ => exact lhs_score_0 _ _
      | ⟨1, _⟩ => exact (lhs_score_1 _ _).trans hk)
  have er : dot_S1024x256_S256x512_S1024x512_1_0_0_1_n_n.rhsIdx (ix2 a b) ((contrEquiv1 dot_S1024x256_S256x512_S1024x512_1_0_0_1_n_n 256 rfl rfl).symm k) = ix2 k b :=
    funext fun c => Fin.ext (by
      match c with
      | ⟨0, _⟩ => exact (rhs_score_0 _ _).trans hk
      | ⟨1, _⟩ => exact rhs_score_1 _ _)
  rw [el, er]

/-! ### The scatter as a product: the masked scores against the `512 × 1280` one-hot slot matrix -/

theorem lhs_slot_0 (i : S1024x1280.Idx) (q : dot_S1024x512_S512x1280_S1024x1280_1_0_0_1_n_n.contr.Idx) :
    (dot_S1024x512_S512x1280_S1024x1280_1_0_0_1_n_n.lhsIdx i q 0).val = (i 0).val := by
  unfold DotDims.lhsIdx
  rw [dif_neg (show ¬(0 : Fin S1024x512.rank) ∈ dot_S1024x512_S512x1280_S1024x1280_1_0_0_1_n_n.lhsBatch by decide),
    dif_pos (show (0 : Fin S1024x512.rank) ∈ dot_S1024x512_S512x1280_S1024x1280_1_0_0_1_n_n.lhsNonContracting by decide)]
  rfl
theorem lhs_slot_1 (i : S1024x1280.Idx) (q : dot_S1024x512_S512x1280_S1024x1280_1_0_0_1_n_n.contr.Idx) :
    (dot_S1024x512_S512x1280_S1024x1280_1_0_0_1_n_n.lhsIdx i q 1).val = (q ⟨0, by decide⟩).val :=
  dot_S1024x512_S512x1280_S1024x1280_1_0_0_1_n_n.lhsIdx_val_of_single rfl i q
theorem rhs_slot_0 (i : S1024x1280.Idx) (q : dot_S1024x512_S512x1280_S1024x1280_1_0_0_1_n_n.contr.Idx) :
    (dot_S1024x512_S512x1280_S1024x1280_1_0_0_1_n_n.rhsIdx i q 0).val = (q ⟨0, by decide⟩).val :=
  dot_S1024x512_S512x1280_S1024x1280_1_0_0_1_n_n.rhsIdx_val_of_single rfl i q
theorem rhs_slot_1 (i : S1024x1280.Idx) (q : dot_S1024x512_S512x1280_S1024x1280_1_0_0_1_n_n.contr.Idx) :
    (dot_S1024x512_S512x1280_S1024x1280_1_0_0_1_n_n.rhsIdx i q 1).val = (i 1).val := by
  unfold DotDims.rhsIdx
  rw [dif_neg (show ¬(1 : Fin S512x1280.rank) ∈ dot_S1024x512_S512x1280_S1024x1280_1_0_0_1_n_n.rhsBatch by decide),
    dif_pos (show (1 : Fin S512x1280.rank) ∈ dot_S1024x512_S512x1280_S1024x1280_1_0_0_1_n_n.rhsNonContracting by decide)]
  rfl

/-- The product into a zero accumulator, at `(a, b)`: row `a` of the left operand against column `b` of the right. -/
theorem matmul_slot_apply {φ₁ φ₂ : FTy} (x : FVec Ideal S1024x512 φ₁) (y : FVec Ideal S512x1280 φ₂) (a : Fin 1024) (b : Fin 1280) :
    matmul dot_S1024x512_S512x1280_S1024x1280_1_0_0_1_n_n none x y (constant S1024x1280 .f32 0x00000000#32) (ix2 a b)
      = ∑ k : Fin 512, x (ix2 a k) * y (ix2 k b) := by
  refine (Ideal.matmul_constant_zero_apply dot_S1024x512_S512x1280_S1024x1280_1_0_0_1_n_n none x y (ix2 a b)).trans ?_
  rw [← Equiv.sum_comp (contrEquiv1 dot_S1024x512_S512x1280_S1024x1280_1_0_0_1_n_n 512 rfl rfl).symm]
  refine Finset.sum_congr rfl fun k _ => ?_
  have hk := contrEquiv1_symm_val dot_S1024x512_S512x1280_S1024x1280_1_0_0_1_n_n 512 rfl rfl k
  have el : dot_S1024x512_S512x1280_S1024x1280_1_0_0_1_n_n.lhsIdx (ix2 a b) ((contrEquiv1 dot_S1024x512_S512x1280_S1024x1280_1_0_0_1_n_n 512 rfl rfl).symm k) = ix2 a k :=
    funext fun c => Fin.ext (by
      match c with
      | ⟨0, _⟩ => exact lhs_slot_0 _ _
      | ⟨1, _⟩ => exact (lhs_slot_1 _ _).trans hk)
  have er : dot_S1024x512_S512x1280_S1024x1280_1_0_0_1_n_n.rhsIdx (ix2 a b) ((contrEquiv1 dot_S1024x512_S512x1280_S1024x1280_1_0_0_1_n_n 512 rfl rfl).symm k) = ix2 k b :=
    funext fun c => Fin.ext (by
      match c with
      | ⟨0, _⟩ => exact (rhs_slot_0 _ _).trans hk
      | ⟨1, _⟩ => exact rhs_slot_1 _ _)
  rw [el, er]

/-- The first launch's payload at an entry: a row of the tile against a column of the weights. -/
theorem pay1_apply (v0 : Vec Ideal S512x1024 .f32) (v2 : Vec Ideal S1024x512 .f32) (a : Fin 512) (b : Fin 512) :
    k0_pay1 (F := Ideal) v0 v2 (ix2 a b) = ∑ c : Fin 1024, v0 (ix2 a c) * v2 (ix2 c b) := by
  unfold k0_pay1
  refine (matmul_proj_apply _ _ a b).trans ?_
  refine Finset.sum_congr rfl fun c _ => ?_
  rw [shapeCast_self]
  rfl

/-- The reset payload is zero everywhere. -/
theorem pay_zero (a : Fin 1024) (b : Fin 1280) : k1_pay1 (F := Ideal) (ix2 a b) = 0 := by
  unfold k1_pay1
  exact Ideal.ofBits_zero_f32

/-! ## Layout and words at an entry -/

/-- A `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word of `m * c + i`, for a position inside a tile, is the sum of the words as the kernel forms it. -/
theorem word_affine (i c m : ℕ) :
    IntOp.addi (BitVec.ofNat 32 i) (Scalar.muli (BitVec.ofNat 32 c) (BitVec.ofNat 32 m)) = BitVec.ofNat 32 (m * c + i) := by
  unfold IntOp.addi Scalar.muli IntOp.muli
  apply BitVec.eq_of_toNat_eq
  simp only [BitVec.toNat_add, BitVec.toNat_mul, BitVec.toNat_ofNat]
  rw [Nat.mul_comm m c]
  simp [Nat.add_mod, Nat.mul_mod, Nat.add_comm]

/-- The key's position word, at `(a, j)` of the score tile. -/
theorem key_word (h27 : S1x512.Iotas .tc 32 [1]) (hb : S1x512.Broadcasts S1024x512) (ki : ℕ) (a : Fin 1024) (j : Fin 512) :
    broadcastTo S1024x512 (addi (iota .tc S1x512 32 [1] h27) (broadcast S1x512 (Scalar.muli (BitVec.ofNat 32 ki) 512#32))) hb (ix2 a j)
      = BitVec.ofNat 32 (512 * ki + j.val) := by
  rw [broadcastTo_1b_ab_apply]
  show IntOp.addi (iota .tc S1x512 32 [1] h27 (ix2 (0 : Fin 1) j)) (Scalar.muli (BitVec.ofNat 32 ki) 512#32) = _
  rw [iota_single_apply]
  exact word_affine j.val ki 512

/-- The query's position word, at `(a, j)` of the score tile. -/
theorem query_word (h23 : S1024x1.Iotas .tc 32 [0]) (hb : S1024x1.Broadcasts S1024x512) (qi : ℕ) (a : Fin 1024) (j : Fin 512) :
    broadcastTo S1024x512 (addi (iota .tc S1024x1 32 [0] h23) (broadcast S1024x1 (Scalar.muli (BitVec.ofNat 32 qi) 1024#32))) hb (ix2 a j)
      = BitVec.ofNat 32 (1024 * qi + a.val) := by
  rw [broadcastTo_a1_ab_apply]
  show IntOp.addi (iota .tc S1024x1 32 [0] h23 (ix2 a (0 : Fin 1))) (Scalar.muli (BitVec.ofNat 32 qi) 1024#32) = _
  rw [iota_single_apply]
  exact word_affine a.val qi 1024

/-- The column's slot word, at `(j, b)` of the slot matrix. -/
theorem slot_word (h39 : S1x1280.Iotas .tc 32 [1]) (hb : S1x1280.Broadcasts S512x1280) (vj : ℕ) (j : Fin 512) (b : Fin 1280) :
    broadcastTo S512x1280 (addi (iota .tc S1x1280 32 [1] h39) (broadcast S1x1280 (Scalar.muli (BitVec.ofNat 32 vj) 1280#32))) hb (ix2 j b)
      = BitVec.ofNat 32 (1280 * vj + b.val) := by
  rw [broadcastTo_1b_ab_apply]
  show IntOp.addi (iota .tc S1x1280 32 [1] h39 (ix2 (0 : Fin 1) b)) (Scalar.muli (BitVec.ofNat 32 vj) 1280#32) = _
  rw [iota_single_apply]
  exact word_affine b.val vj 1280

/-- Two position words compare, signed, as the positions: both are far below `2 ^ 31`. -/
theorem sle_pos_iff (m n : ℕ) (hm : m < 2 ^ 31) (hn : n < 2 ^ 31) :
    IntOp.cmpi .sle (BitVec.ofNat 32 m) (BitVec.ofNat 32 n) = 1#1 ↔ m ≤ n := by
  have em : (BitVec.ofNat 32 m).toNat = m := by rw [BitVec.toNat_ofNat]; exact Nat.mod_eq_of_lt (by omega)
  have en : (BitVec.ofNat 32 n).toNat = n := by rw [BitVec.toNat_ofNat]; exact Nat.mod_eq_of_lt (by omega)
  rw [StableHlo.Predicate.sle_iff_toNat (by rw [em]; exact hm) (by rw [en]; exact hn), em, en]

/-- The widened bit converted to a float is `1` or `0`. -/
theorem sitofp_bit (c : BitVec 1) :
    FloatOps.sitofp (F := Ideal) .f32 (c.setWidth 32) = if c = 1#1 then 1 else 0 := by
  show (((c.setWidth 32).toInt : ℝ) : EReal) = _
  rcases BitVec.eq_zero_or_eq_one c with h | h
  · subst h
    rw [if_neg (by decide), show ((0#1).setWidth 32).toInt = 0 by decide]
    simp
  · subst h
    rw [if_pos rfl, show ((1#1).setWidth 32).toInt = 1 by decide]
    simp

/-- The causal bit at `(a, j)` of the score tile: set exactly when the key's position is not after the query's. -/
theorem causal_bit (h27 : S1x512.Iotas .tc 32 [1]) (hb1 : S1x512.Broadcasts S1024x512) (h23 : S1024x1.Iotas .tc 32 [0])
    (hb2 : S1024x1.Broadcasts S1024x512) (qi ki : ℕ) (hqi : qi < 4) (hki : ki < 8) (a : Fin 1024) (j : Fin 512) :
    cmpi .sle
        (broadcastTo S1024x512 (addi (iota .tc S1x512 32 [1] h27) (broadcast S1x512 (Scalar.muli (BitVec.ofNat 32 ki) 512#32))) hb1)
        (broadcastTo S1024x512 (addi (iota .tc S1024x1 32 [0] h23) (broadcast S1024x1 (Scalar.muli (BitVec.ofNat 32 qi) 1024#32))) hb2)
        (ix2 a j)
      = if 512 * ki + j.val ≤ 1024 * qi + a.val then 1#1 else 0#1 := by
  have ha := a.isLt
  have hj := j.isLt
  show IntOp.cmpi .sle
      (broadcastTo S1024x512 (addi (iota .tc S1x512 32 [1] h27) (broadcast S1x512 (Scalar.muli (BitVec.ofNat 32 ki) 512#32))) hb1 (ix2 a j))
      (broadcastTo S1024x512 (addi (iota .tc S1024x1 32 [0] h23) (broadcast S1024x1 (Scalar.muli (BitVec.ofNat 32 qi) 1024#32))) hb2 (ix2 a j))
    = _
  rw [key_word, query_word]
  have hiff := sle_pos_iff (512 * ki + j.val) (1024 * qi + a.val) (by omega) (by omega)
  by_cases h : 512 * ki + j.val ≤ 1024 * qi + a.val
  · rw [if_pos h]; exact hiff.mpr h
  · rw [if_neg h]; exact eq_zero_of_ne_one (fun hb => h (hiff.mp hb))

/-- The slot bit at `(j, b)` of the slot matrix: set exactly when key `j`'s word is the column's slot word. -/
theorem slot_bit (hc : S512x1.ShapeCasts S512x1) (hb1 : S512x1.Broadcasts S512x1280) (h39 : S1x1280.Iotas .tc 32 [1])
    (hb2 : S1x1280.Broadcasts S512x1280) (v37 : IVec S512x1 32) (vj : ℕ) (j : Fin 512) (b : Fin 1280) :
    cmpi .eq
        (broadcastTo S512x1280 (shapeCast S512x1 v37 hc) hb1)
        (broadcastTo S512x1280 (addi (iota .tc S1x1280 32 [1] h39) (broadcast S1x1280 (Scalar.muli (BitVec.ofNat 32 vj) 1280#32))) hb2)
        (ix2 j b)
      = if v37 (ix2 j (0 : Fin 1)) = BitVec.ofNat 32 (1280 * vj + b.val) then 1#1 else 0#1 := by
  show IntOp.cmpi .eq
      (broadcastTo S512x1280 (shapeCast S512x1 v37 hc) hb1 (ix2 j b))
      (broadcastTo S512x1280 (addi (iota .tc S1x1280 32 [1] h39) (broadcast S1x1280 (Scalar.muli (BitVec.ofNat 32 vj) 1280#32))) hb2 (ix2 j b))
    = _
  rw [slot_word, broadcastTo_a1_ab_apply, shapeCast_self]
  by_cases h : v37 (ix2 j (0 : Fin 1)) = BitVec.ofNat 32 (1280 * vj + b.val)
  · rw [if_pos h]; exact StableHlo.Predicate.cmpi_eq_iff.mpr h
  · rw [if_neg h]; exact eq_zero_of_ne_one (fun hb => h (StableHlo.Predicate.cmpi_eq_iff.mp hb))

/-- The update payload at an entry, at grid point `(vj, qi, ki)`. -/
theorem pay2_apply (vj : Fin 25) (qi : Fin 4) (ki : Fin 8) (v14 : Vec Ideal S1024x256 .bf16) (v17 : Vec Ideal S512x256 .bf16)
    (v37 : Vec Ideal S512x1 .i32) (v49 : Vec Ideal S1024x1280 .f32) (a : Fin 1024) (b : Fin 1280) :
    k1_pay2 (F := Ideal) (BitVec.ofNat 32 vj.val) (BitVec.ofNat 32 qi.val) (BitVec.ofNat 32 ki.val) v14 v17 v37 v49 (ix2 a b)
      = v49 (ix2 a b) + ∑ j : Fin 512,
          (if 512 * ki.val + j.val ≤ 1024 * qi.val + a.val
            then (∑ d : Fin 256, v14 (ix2 a d) * v17 (ix2 j d)) * Ideal.ofBits .f32 0x3B800000#32 else 0)
          * (if v37 (ix2 j (0 : Fin 1)) = BitVec.ofNat 32 (1280 * vj.val + b.val) then 1 else 0) := by
  unfold k1_pay2
  refine (addf_apply _ _ (ix2 a b)).trans ?_
  refine congrArg₂ (· + ·) (congrFun (shapeCast_self v49 _) (ix2 a b)) ?_
  refine (matmul_slot_apply _ _ a b).trans ?_
  refine Finset.sum_congr rfl fun j _ => ?_
  refine congrArg₂ (· * ·) ?_ ?_
  · refine (select_apply _ _ _ (ix2 a j)).trans ?_
    rw [causal_bit _ _ _ _ qi.val ki.val qi.isLt ki.isLt a j]
    by_cases h : 512 * ki.val + j.val ≤ 1024 * qi.val + a.val
    · rw [if_pos h, if_pos h, select_one]
      refine (mulf_apply _ _ (ix2 a j)).trans ?_
      refine congrArg₂ (· * ·) ?_ rfl
      refine (matmul_score_apply _ _ a j).trans ?_
      refine Finset.sum_congr rfl fun d _ => ?_
      rw [transpose_ix2_apply, shapeCast_self, shapeCast_self]
    · rw [if_neg h, if_neg h, select_zero]
      exact Ideal.ofBits_zero_f32
  · refine (sitofp_apply (F := Ideal) (φ := .f32) _ (ix2 j b)).trans ?_
    refine (congrArg (FloatOps.sitofp (F := Ideal) .f32) (extui_apply _ _ (ix2 j b))).trans ?_
    rw [sitofp_bit, slot_bit]
    by_cases h : v37 (ix2 j (0 : Fin 1)) = BitVec.ofNat 32 (1280 * vj.val + b.val)
    · rw [if_pos h, if_pos h, if_pos rfl]
    · rw [if_neg h, if_neg h, if_neg (by decide)]

end Cert.KernelIdeal.Val

end
-- ==== Proof.KernelIdeal.Val0.lean ====
import proofs.«415133_j62843961475103_2_alg».proof.Proof.KernelIdeal.Region0
import proofs.«415133_j62843961475103_2_alg».proof.Proof.KernelIdeal.PayIdx
import Idealize.ShloMosaic.Lib.Pipeline.Value
import Idealize.ShloMosaic.Lib.ValueIdx

/-!
# What the first launch leaves in its result array

Point `t` of the first launch writes back rows `512 t … 512 t + 511` of the product of the activations with the
concatenated weight matrix; the eight blocks tile the 4096 rows. So the array ends holding, at `(r, d)`, the inner
product of row `r` of the activations with column `d` of the concatenated weights.
-/

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat Cfg Window)

-- the buffers' contents when the launch is entered
variable (V : (c : Dev nD) → (b : Ref sig .tc) → Buf (Elt Ideal) ((c : Thread nD τ).loc b))

theorem hz2 : (![0, 0] : Fin 2 → Nat) = fun _ => 0 := funext fun a => by fin_cases a <;> rfl

/-- Row `r` of the activations against column `d` of the concatenated weights. -/
def g0 (x : S4096x1024.Idx → EReal) (W : S1024x512.Idx → EReal) (r : Fin 4096) (d : Fin 512) : EReal :=
  ∑ cc : Fin 1024, x (ix2 r cc) * W (ix2 cc d)

/-- The product as an array. -/
def G0 (x : S4096x1024.Idx → EReal) (W : S1024x512.Idx → EReal) : S4096x512.Idx → EReal :=
  fun i => g0 x W ⟨(i 0).val, idx2_lt0 i⟩ ⟨(i 1).val, idx2_lt1 i⟩

theorem G0_ix2 (x : S4096x1024.Idx → EReal) (W : S1024x512.Idx → EReal) (r : Fin 4096) (d : Fin 512) :
    G0 x W (ix2 r d) = g0 x W r d := rfl

/-- The windows' block indices over the grid: the activations' and the result's row block is the point, every other
    block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the activations' block at point `t` is the array's entry `512 t` rows further down. -/
theorem iblk0_0_apply (c : Dev nD) (t : Fin cfg0.N) (a : Fin 512) (cc : Fin 1024) (h : 512 * t.val + a.val < 4096) :
    iblk0 V c 0 t (ix2 a cc) = V c main_arg0 (ix2 (⟨512 * t.val + a.val, h⟩ : Fin 4096) cc) := by
  obtain ⟨e0, e1, -⟩ := idx_facts0 t
  show V c main_arg0 (((cfg0.win 0).blk t).view.emb (ix2 a cc)) = V c main_arg0 (ix2 (⟨512 * t.val + a.val, h⟩ : Fin 4096) cc)
  refine congrArg _ ?_
  funext ax; apply Fin.ext
  match ax with
  | ⟨0, _⟩ => show win0_0.index t (0 : Fin 2) * 512 + 1 * a.val = 512 * t.val + a.val; omega
  | ⟨1, _⟩ => show win0_0.index t (1 : Fin 2) * 1024 + 1 * cc.val = cc.val; omega

/-- The weights' block is the whole matrix. -/
theorem iblk0_1_apply (c : Dev nD) (t : Fin cfg0.N) (cc : Fin 1024) (b : Fin 512) :
    iblk0 V c 1 t (ix2 cc b) = V c main_v0 (ix2 cc b) := by
  obtain ⟨-, -, e2, e3, -⟩ := idx_facts0 t
  show V c main_v0 (((cfg0.win 1).blk t).view.emb (ix2 cc b)) = V c main_v0 (ix2 cc b)
  refine congrArg _ ?_
  funext ax; apply Fin.ext
  match ax with
  | ⟨0, _⟩ => show win0_1.index t (0 : Fin 2) * 1024 + 1 * cc.val = cc.val; omega
  | ⟨1, _⟩ => show win0_1.index t (1 : Fin 2) * 512 + 1 * b.val = b.val; omega

/-- What point `t` writes back is block `t` of the product. -/
theorem flushed0_eq (c : Dev nD) (t : Fin cfg0.N) :
    (dat0 V c).flushed 2 t = ((cfg0.win 2).blk t).view.read (Elt Ideal) (G0 (V c main_arg0) (V c main_v0)) := by
  show (cfg0.win 2).cut (grid0.coords t) ((dat0 V c).after 2 t) = _
  rw [after0_2]
  unfold out0_2
  rw [View.canon_unit_zero hz2]
  simp only [View.ld_unit_zero (S := S512x1024) hz2, View.ld_unit_zero (S := S1024x512) hz2]
  have hN : t.val < 8 := lt_of_lt_of_eq t.isLt (show cfg0.N = 8 from N_0)
  obtain ⟨-, -, -, -, e4, e5⟩ := idx_facts0 t
  funext j
  obtain ⟨a, b, rfl⟩ : ∃ (a : Fin 512) (b : Fin 512), j = ix2 a b := ⟨j 0, j 1, eq_ix2 j⟩
  have ha : 512 * t.val + a.val < 4096 := by have := a.isLt; omega
  have hemb : ((cfg0.win 2).blk t).view.emb (ix2 a b) = ix2 (⟨512 * t.val + a.val, ha⟩ : Fin 4096) b := by
    funext ax; apply Fin.ext
    match ax with
    | ⟨0, _⟩ => show win0_2.index t (0 : Fin 2) * 512 + 1 * a.val = 512 * t.val + a.val; omega
    | ⟨1, _⟩ => show win0_2.index t (1 : Fin 2) * 512 + 1 * b.val = b.val; omega
  show k0_pay1 (F := Ideal) (iblk0 V c 0 t) (iblk0 V c 1 t) (ix2 a b)
    = G0 (V c main_arg0) (V c main_v0) (((cfg0.win 2).blk t).view.emb (ix2 a b))
  rw [hemb, G0_ix2]
  refine (pay1_apply (iblk0 V c 0 t) (iblk0 V c 1 t) a b).trans ?_
  unfold g0
  refine Finset.sum_congr rfl fun cc _ => ?_
  rw [iblk0_0_apply V c t a cc ha, iblk0_1_apply V c t cc b]

/-- An entry of the result array is in point `t`'s block iff each coordinate is in the block's range. -/
theorem mem_blk0 (t : Fin cfg0.N) (i : S4096x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v1).slice (win0_2.rect t)).set ↔ _
  rw [View.set_slice_whole, Rect.mem_set_unit]
  exact Iff.rfl

/-- Every entry is in some point's block: row `r` in point `r / 512`'s. -/
theorem cover0 (i : S4096x512.Idx) :
    ∃ t : Fin cfg0.N, (cfg0.win 2).flush t = true ∧ i ∈ ((cfg0.win 2).blk t).view.set := by
  have hi0 : (i 0).val < 4096 := idx2_lt0 i
  have hi1 : (i 1).val < 512 := idx2_lt1 i
  have hN : cfg0.N = 8 := N_0
  let t : Fin cfg0.N := ⟨(i 0).val / 512, by rw [hN]; omega⟩
  obtain ⟨-, -, -, -, e4, e5⟩ := idx_facts0 t
  have e4' : win0_2.index t (0 : Fin 2) = (i 0).val / 512 := e4
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The result array after the launch: the product of the activations with the concatenated weights. -/
theorem final0 (c : Dev nD) : (dat0 V c).arrAt 2 cfg0.N = G0 (V c main_arg0) (V c main_v0) :=
  (dat0 V c).arrAt_eq_of_cover 2 (G0 (V c main_arg0) (V c main_v0)) (fun t _ => flushed0_eq V c t) cover0

end Cert.KernelIdeal.Val

end
-- ==== Proof.KernelIdeal.Val1.lean ====
import proofs.«415133_j62843961475103_2_alg».proof.Proof.KernelIdeal.Region1
import proofs.«415133_j62843961475103_2_alg».proof.Proof.KernelIdeal.PayIdx
import Idealize.ShloMosaic.Lib.Pipeline.Value
import Idealize.ShloMosaic.Lib.ValueIdx

/-!
# What the second launch leaves in the result array

For query row `r`, key row `k` and slot `v` the term is the causal scaled score of `r` against `k` (zero where the
key is after the query) times 1 or 0 as the key's slot word is or is not `v`. After the body at grid point
`(vj, qi, ki)` the output window's buffer holds, at `(a, b)`, the sum of the terms of row `1024 qi + a` and slot
`1280 vj + b` over the keys below `512 (ki + 1)`: a point that updates adds the 512 terms of its tile, and a point
that stores nothing has a tile wholly after the query rows, all of whose terms are zero. At `ki = 7` that is the sum
over all keys, and that block is written back; the hundred blocks tile the array.
-/

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat Cfg Window)

-- the buffers' contents when the launch is entered
variable (V : (c : Dev nD) → (b : Ref sig .tc) → Buf (Elt Ideal) ((c : Thread nD τ).loc b))

/-- The term of query row `r`, key row `k` and slot `v`. -/
def term1 (Q K : S4096x256.Idx → EReal) (I : S4096x1.Idx → BitVec 32) (r k : Fin 4096) (v : Fin 32000) : EReal :=
  (if k.val ≤ r.val then (∑ d : Fin 256, Q (ix2 r d) * K (ix2 k d)) * Ideal.ofBits .f32 0x3B800000#32 else 0)
    * (if I (ix2 k (0 : Fin 1)) = BitVec.ofNat 32 v.val then 1 else 0)

/-- Entry `(r, v)`: the terms summed over all keys. -/
def g1 (Q K : S4096x256.Idx → EReal) (I : S4096x1.Idx → BitVec 32) (r : Fin 4096) (v : Fin 32000) : EReal :=
  ∑ k : Fin 4096, term1 Q K I r k v

/-- The result as an array. -/
def G1 (Q K : S4096x256.Idx → EReal) (I : S4096x1.Idx → BitVec 32) : S4096x32000.Idx → EReal :=
  fun i => g1 Q K I ⟨(i 0).val, idx2_lt0 i⟩ ⟨(i 1).val, idx2_lt1 i⟩

theorem G1_ix2 (Q K : S4096x256.Idx → EReal) (I : S4096x1.Idx → BitVec 32) (r : Fin 4096) (v : Fin 32000) :
    G1 Q K I (ix2 r v) = g1 Q K I r v := rfl

/-! ## The grid's coordinates and the windows' block indices -/

/-- Point `t` is `(vj, qi, ki) = (t / 32, t / 8 % 4, t % 8)`; the three input windows' block index is zero on both
    axes at every point, and the output window's is `(qi, vj)`. -/
theorem idx_facts1 : ∀ t : Fin cfg1.N,
    ((grid1.coords t) 0).val = t.val / 32 ∧ ((grid1.coords t) 1).val = t.val / 8 % 4 ∧ ((grid1.coords t) 2).val = t.val % 8
    ∧ win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 8 % 4 ∧ win1_3.index t (1 : Fin 2) = t.val / 32 :=
  (by decide +kernel : ∀ t : Fin grid1.N, _)

/-! ## The input windows' blocks are their whole arrays -/

/-- The query projection's block is the whole array. -/
theorem iblk1_0_apply (c : Dev nD) (t : Fin cfg1.N) (r : Fin 4096) (d : Fin 256) :
    iblk1 V c 0 t (ix2 r d) = V c main_v2 (ix2 r d) := by
  obtain ⟨-, -, -, e0, e1, -⟩ := idx_facts1 t
  show V c main_v2 (((cfg1.win 0).blk t).view.emb (ix2 r d)) = V c main_v2 (ix2 r d)
  refine congrArg _ ?_
  funext ax; apply Fin.ext
  match ax with
  | ⟨0, _⟩ => show win1_0.index t (0 : Fin 2) * 4096 + 1 * r.val = r.val; omega
  | ⟨1, _⟩ => show win1_0.index t (1 : Fin 2) * 256 + 1 * d.val = d.val; omega

/-- The key projection's block is the whole array. -/
theorem iblk1_1_apply (c : Dev nD) (t : Fin cfg1.N) (r : Fin 4096) (d : Fin 256) :
    iblk1 V c 1 t (ix2 r d) = V c main_v3 (ix2 r d) := by
  obtain ⟨-, -, -, -, -, e0, e1, -⟩ := idx_facts1 t
  show V c main_v3 (((cfg1.win 1).blk t).view.emb (ix2 r d)) = V c main_v3 (ix2 r d)
  refine congrArg _ ?_
  funext ax; apply Fin.ext
  match ax with
  | ⟨0, _⟩ => show win1_1.index t (0 : Fin 2) * 4096 + 1 * r.val = r.val; omega
  | ⟨1, _⟩ => show win1_1.index t (1 : Fin 2) * 256 + 1 * d.val = d.val; omega

/-- The slot words' block is the whole column. -/
theorem iblk1_2_apply (c : Dev nD) (t : Fin cfg1.N) (r : Fin 4096) (z : Fin 1) :
    iblk1 V c 2 t (ix2 r z) = V c main_v4 (ix2 r z) := by
  obtain ⟨-, -, -, -, -, -, -, e0, e1, -⟩ := idx_facts1 t
  show V c main_v4 (((cfg1.win 2).blk t).view.emb (ix2 r z)) = V c main_v4 (ix2 r z)
  refine congrArg _ ?_
  funext ax; apply Fin.ext
  match ax with
  | ⟨0, _⟩ => show win1_2.index t (0 : Fin 2) * 4096 + 1 * r.val = r.val; omega
  | ⟨1, _⟩ => show win1_2.index t (1 : Fin 2) * 1 + 1 * z.val = z.val; omega

/-! ## Loads through the tiles' slices -/

/-- A load of the query tile reads the array `1024 qi` rows further down. -/
theorem ldQ_apply (i : grid1.Coords) (h2 : k1_cond2 i = 1#1) (x : Vec Ideal S4096x256 .bf16) (a : Fin 1024) (d : Fin 256)
    (r : Fin 4096) (hr : r.val = 1024 * (i 1).val + a.val) :
    View.ld x (rQ i h2) (ix2 a d) = x (ix2 r d) := by
  show x ((rQ i h2).emb (ix2 a d)) = x (ix2 r d)
  refine congrArg _ ?_
  funext ax; apply Fin.ext
  match ax with
  | ⟨0, _⟩ => show k1_off1 i (0 : Fin 2) + 1 * a.val = r.val; rw [k1_off1_eq, hr]; show 1024 * (i 1).val + 1 * a.val = _; omega
  | ⟨1, _⟩ => show k1_off1 i (1 : Fin 2) + 1 * d.val = d.val; rw [k1_off1_eq]; show 0 + 1 * d.val = _; omega

/-- A load of the key tile reads the array `512 ki` rows further down. -/
theorem ldK_apply (i : grid1.Coords) (h2 : k1_cond2 i = 1#1) (x : Vec Ideal S4096x256 .bf16) (j : Fin 512) (d : Fin 256)
    (k : Fin 4096) (hk : k.val = 512 * (i 2).val + j.val) :
    View.ld x (rK i h2) (ix2 j d) = x (ix2 k d) := by
  show x ((rK i h2).emb (ix2 j d)) = x (ix2 k d)
  refine congrArg _ ?_
  funext ax; apply Fin.ext
  match ax with
  | ⟨0, _⟩ => show k1_off2 i (0 : Fin 2) + 1 * j.val = k.val; rw [k1_off2_eq, hk]; show 512 * (i 2).val + 1 * j.val = _; omega
  | ⟨1, _⟩ => show k1_off2 i (1 : Fin 2) + 1 * d.val = d.val; rw [k1_off2_eq]; show 0 + 1 * d.val = _; omega

/-- A load of the slot words' tile reads the column `512 ki` rows further down. -/
theorem ldI_apply (i : grid1.Coords) (h2 : k1_cond2 i = 1#1) (x : Vec Ideal S4096x1 .i32) (j : Fin 512) (z : Fin 1)
    (k : Fin 4096) (hk : k.val = 512 * (i 2).val + j.val) :
    View.ld x (rI i h2) (ix2 j z) = x (ix2 k z) := by
  show x ((rI i h2).emb (ix2 j z)) = x (ix2 k z)
  refine congrArg _ ?_
  funext ax; apply Fin.ext
  match ax with
  | ⟨0, _⟩ => show k1_off3 i (0 : Fin 2) + 1 * j.val = k.val; rw [k1_off3_eq, hk]; show 512 * (i 2).val + 1 * j.val = _; omega
  | ⟨1, _⟩ => show k1_off3 i (1 : Fin 2) + 1 * z.val = z.val; rw [k1_off3_eq]; show 0 + 1 * z.val = _; omega

/-! ## One update at an entry -/

/-- One update at `(a, b)`, at grid point `(vj, qi, ki)`: what the buffer held there plus the 512 terms of key tile
    `ki`, for row `r = 1024 qi + a`, slot `v = 1280 vj + b` and keys `kk j = 512 ki + j`. -/
theorem step1_apply (i : grid1.Coords) (h2 : k1_cond2 i = 1#1) (x0 x1 : Vec Ideal S4096x256 .bf16) (x2 : Vec Ideal S4096x1 .i32)
    (prev : Vec Ideal S1024x1280 .f32) (a : Fin 1024) (b : Fin 1280) (r : Fin 4096) (v : Fin 32000) (kk : Fin 512 → Fin 4096)
    (hr : r.val = 1024 * (i 1).val + a.val) (hv : v.val = 1280 * (i 0).val + b.val)
    (hk : ∀ j : Fin 512, (kk j).val = 512 * (i 2).val + j.val) :
    step1 i h2 x0 x1 x2 prev (ix2 a b) = prev (ix2 a b) + ∑ j : Fin 512, term1 x0 x1 x2 r (kk j) v := by
  have hi0 : (i 0).val < 25 := (i 0).isLt
  have hi1 : (i 1).val < 4 := (i 1).isLt
  have hi2 : (i 2).val < 8 := (i 2).isLt
  unfold step1
  refine (pay2_apply ⟨(i 0).val, hi0⟩ ⟨(i 1).val, hi1⟩ ⟨(i 2).val, hi2⟩ (View.ld x0 (rQ i h2)) (View.ld x1 (rK i h2))
    (View.ld x2 (rI i h2)) prev a b).trans ?_
  refine congrArg (prev (ix2 a b) + ·) ?_
  refine Finset.sum_congr rfl fun j _ => ?_
  have e1 : ∀ d : Fin 256, View.ld x0 (rQ i h2) (ix2 a d) = x0 (ix2 r d) := fun d => ldQ_apply i h2 x0 a d r hr
  have e2 : ∀ d : Fin 256, View.ld x1 (rK i h2) (ix2 j d) = x1 (ix2 (kk j) d) := fun d => ldK_apply i h2 x1 j d (kk j) (hk j)
  have e3 : View.ld x2 (rI i h2) (ix2 j (0 : Fin 1)) = x2 (ix2 (kk j) (0 : Fin 1)) := ldI_apply i h2 x2 j 0 (kk j) (hk j)
  unfold term1
  simp only [e1, e2, e3, hk j, hr, hv]

/-- A term over the input windows' blocks at point `t` is the term over the arrays. -/
theorem term1_iblk (c : Dev nD) (t : Fin cfg1.N) (r k : Fin 4096) (v : Fin 32000) :
    term1 (iblk1 V c 0 t) (iblk1 V c 1 t) (iblk1 V c 2 t) r k v = term1 (V c main_v2) (V c main_v3) (V c main_v4) r k v := by
  unfold term1
  simp only [iblk1_0_apply, iblk1_1_apply, iblk1_2_apply]

/-- One update at point `t = (vj, qi, ki)`, on the windows' blocks there, in terms of the arrays. -/
theorem step1_at (c : Dev nD) (t : Fin cfg1.N) (h2 : k1_cond2 (grid1.coords t) = 1#1) (prev : Vec Ideal S1024x1280 .f32)
    (a : Fin 1024) (b : Fin 1280) (r : Fin 4096) (v : Fin 32000) (kk : Fin 512 → Fin 4096)
    (hr : r.val = 1024 * (t.val / 8 % 4) + a.val) (hv : v.val = 1280 * (t.val / 32) + b.val)
    (hk : ∀ j : Fin 512, (kk j).val = 512 * (t.val % 8) + j.val) :
    step1 (grid1.coords t) h2 (iblk1 V c 0 t) (iblk1 V c 1 t) (iblk1 V c 2 t) prev (ix2 a b)
      = prev (ix2 a b) + ∑ j : Fin 512, term1 (V c main_v2) (V c main_v3) (V c main_v4) r (kk j) v := by
  obtain ⟨c0, c1, c2, -⟩ := idx_facts1 t
  refine (step1_apply (grid1.coords t) h2 (iblk1 V c 0 t) (iblk1 V c 1 t) (iblk1 V c 2 t) prev a b r v kk
    (by rw [c1]; exact hr) (by rw [c0]; exact hv) (fun j => by rw [c2]; exact hk j)).trans ?_
  exact congrArg (prev (ix2 a b) + ·) (Finset.sum_congr rfl fun j _ => term1_iblk V c t r (kk j) v)

/-! ## The accumulation over the key tiles -/

/-- The keys below `512 (n + 1)` are those below `512 n` and the 512 of tile `n`. -/
theorem sum_lt_succ_tile (f : Fin 4096 → EReal) (n : ℕ) (kk : Fin 512 → Fin 4096)
    (hk : ∀ j : Fin 512, (kk j).val = 512 * n + j.val) :
    (∑ k : Fin 4096, if k.val < 512 * (n + 1) then f k else 0)
      = (∑ k : Fin 4096, if k.val < 512 * n then f k else 0) + ∑ j : Fin 512, f (kk j) := by
  have hsplit : ∀ k : Fin 4096, (if k.val < 512 * (n + 1) then f k else 0)
      = (if k.val < 512 * n then f k else 0) + (if 512 * n ≤ k.val ∧ k.val < 512 * (n + 1) then f k else 0) := by
    intro k
    by_cases h1 : k.val < 512 * n
    · rw [if_pos h1, if_pos (by omega), if_neg (by omega), add_zero]
    · by_cases h2 : k.val < 512 * (n + 1)
      · rw [if_neg h1, if_pos h2, if_pos ⟨by omega, h2⟩, zero_add]
      · rw [if_neg h1, if_neg h2, if_neg (by omega), add_zero]
  rw [Finset.sum_congr rfl (fun k _ => hsplit k), Finset.sum_add_distrib]
  congr 1
  symm
  -- the keys of the tile are the image of `kk`, which is injective
  refine Fintype.sum_of_injective kk ?_ _ _ ?_ ?_
  · intro j j' e
    apply Fin.ext
    have := congrArg Fin.val e
    rw [hk, hk] at this
    omega
  · intro k hk'
    rw [if_neg]
    rintro ⟨h1, h2⟩
    exact hk' ⟨⟨k.val - 512 * n, by omega⟩, Fin.ext (by rw [hk]; show 512 * n + (k.val - 512 * n) = k.val; omega)⟩
  · intro j
    have hj := j.isLt
    rw [if_pos ⟨by rw [hk]; omega, by rw [hk]; omega⟩]

/-- The same for the terms of a row and a slot. -/
theorem tile_split (Q K : S4096x256.Idx → EReal) (I : S4096x1.Idx → BitVec 32) (r : Fin 4096) (v : Fin 32000) (n : ℕ)
    (kk : Fin 512 → Fin 4096) (hk : ∀ j : Fin 512, (kk j).val = 512 * n + j.val) :
    (∑ k : Fin 4096, if k.val < 512 * (n + 1) then term1 Q K I r k v else 0)
      = (∑ k : Fin 4096, if k.val < 512 * n then term1 Q K I r k v else 0) + ∑ j : Fin 512, term1 Q K I r (kk j) v :=
  sum_lt_succ_tile (fun k => term1 Q K I r k v) n kk hk

/-- A key after the query contributes nothing. -/
theorem term1_zero_of_lt (Q K : S4096x256.Idx → EReal) (I : S4096x1.Idx → BitVec 32) (r k : Fin 4096) (v : Fin 32000)
    (h : r.val < k.val) : term1 Q K I r k v = 0 := by
  unfold term1
  rw [if_neg (by omega), zero_mul]

/-- THE INVARIANT. After the body at position `n = 32 vj + 8 qi + ki` the output window's buffer holds, at `(a, b)`,
    the terms of row `1024 qi + a` and slot `1280 vj + b` summed over the keys below `512 (ki + 1)`. -/
theorem inv1 (c : Dev nD) : ∀ (n : ℕ) (hn : n < cfg1.N) (a : Fin 1024) (b : Fin 1280) (r : Fin 4096) (v : Fin 32000),
    r.val = 1024 * (n / 8 % 4) + a.val → v.val = 1280 * (n / 32) + b.val →
    outsAt1 V c n hn (ix2 a b)
      = ∑ k : Fin 4096, if k.val < 512 * (n % 8 + 1) then term1 (V c main_v2) (V c main_v3) (V c main_v4) r k v else 0 := by
  intro n
  induction n using Nat.strong_induction_on with
  | _ n ih =>
    intro hn a b r v hr hv
    have hN : n < 800 := lt_of_lt_of_eq hn (show cfg1.N = 800 from N_1)
    have ha := a.isLt
    -- the keys of tile `ki = n % 8`
    let kk : Fin 512 → Fin 4096 := fun j => ⟨512 * (n % 8) + j.val, by have := j.isLt; omega⟩
    have hkk : ∀ j : Fin 512, (kk j).val = 512 * (n % 8) + j.val := fun j => rfl
    have hs := tile_split (V c main_v2) (V c main_v3) (V c main_v4) r v (n % 8) kk hkk
    by_cases h0 : n % 8 = 0
    · -- a reset: one update of the zero block, and no key is below `512 · 0`
      refine (congrFun (outsAt1_reset V c ⟨n, hn⟩ h0) (ix2 a b)).trans ?_
      refine (step1_at V c ⟨n, hn⟩ (hcond2_of_reset ⟨n, hn⟩ h0) (k1_pay1 (F := Ideal)) a b r v kk hr hv hkk).trans ?_
      have hz : (∑ k : Fin 4096, if k.val < 512 * (n % 8) then term1 (V c main_v2) (V c main_v3) (V c main_v4) r k v else 0) = 0 :=
        Finset.sum_eq_zero fun k _ => if_neg (by omega)
      rw [hs, hz, pay_zero]
    · -- what the point before left is the sum over the keys below `512 ki`
      have ihn := ih (n - 1) (by omega) (Nat.lt_of_le_of_lt (Nat.sub_le _ _) hn) a b r v (by omega) (by omega)
      have e : (n - 1) % 8 + 1 = n % 8 := by omega
      rw [e] at ihn
      by_cases h2 : k1_cond2 (grid1.coords ⟨n, hn⟩) = 1#1
      · -- an update: the tile's 512 terms are added
        refine (congrFun (outsAt1_acc V c ⟨n, hn⟩ h0 h2) (ix2 a b)).trans ?_
        refine (step1_at V c ⟨n, hn⟩ h2 _ a b r v kk hr hv hkk).trans ?_
        rw [hs]
        exact congrArg (· + ∑ j : Fin 512, term1 (V c main_v2) (V c main_v3) (V c main_v4) r (kk j) v) ihn
      · -- nothing stored: the tile is wholly after the query rows, so its terms are zero
        have hc : ¬ n % 8 ≤ 2 * (n / 8 % 4) + 1 := fun h => h2 ((hcond2 ⟨n, hn⟩).mpr h)
        refine (congrFun (outsAt1_idle V c ⟨n, hn⟩ h0 h2) (ix2 a b)).trans ?_
        refine ihn.trans (Finset.sum_congr rfl fun k _ => ?_)
        by_cases hk1 : k.val < 512 * (n % 8)
        · rw [if_pos hk1, if_pos (by omega)]
        · rw [if_neg hk1]
          by_cases hk2 : k.val < 512 * (n % 8 + 1)
          · rw [if_pos hk2]
            exact (term1_zero_of_lt _ _ _ r k v (by omega)).symm
          · rw [if_neg hk2]

/-! ## The array -/

/-- What a point with `ki = 7` writes back is block `(qi, vj)` of the result: there the invariant's bound is all
    4096 keys. -/
theorem flushed1_eq (c : Dev nD) (t : Fin cfg1.N) (hf : (cfg1.win 3).flush t = true) :
    (dat1 V c).flushed 3 t
      = ((cfg1.win 3).blk t).view.read (Elt Ideal) (G1 (V c main_v2) (V c main_v3) (V c main_v4)) := by
  have h7 : t.val % 8 = 7 := (flush1_3 t).mp hf
  have hN : t.val < 800 := lt_of_lt_of_eq t.isLt (show cfg1.N = 800 from N_1)
  obtain ⟨-, -, -, -, -, -, -, -, -, e0, e1⟩ := idx_facts1 t
  show (cfg1.win 3).cut (grid1.coords t) ((dat1 V c).after 3 t) = _
  rw [after1_3]
  funext j
  obtain ⟨a, b, rfl⟩ : ∃ (a : Fin 1024) (b : Fin 1280), j = ix2 a b := ⟨j 0, j 1, eq_ix2 j⟩
  have hr : 1024 * (t.val / 8 % 4) + a.val < 4096 := by have := a.isLt; omega
  have hv : 1280 * (t.val / 32) + b.val < 32000 := by have := b.isLt; omega
  have hemb : ((cfg1.win 3).blk t).view.emb (ix2 a b)
      = ix2 (⟨1024 * (t.val / 8 % 4) + a.val, hr⟩ : Fin 4096) (⟨1280 * (t.val / 32) + b.val, hv⟩ : Fin 32000) := by
    funext ax; apply Fin.ext
    match ax with
    | ⟨0, _⟩ => show win1_3.index t (0 : Fin 2) * 1024 + 1 * a.val = 1024 * (t.val / 8 % 4) + a.val; omega
    | ⟨1, _⟩ => show win1_3.index t (1 : Fin 2) * 1280 + 1 * b.val = 1280 * (t.val / 32) + b.val; omega
  show outsAt1 V c t.val t.isLt (ix2 a b)
    = G1 (V c main_v2) (V c main_v3) (V c main_v4) (((cfg1.win 3).blk t).view.emb (ix2 a b))
  rw [hemb, G1_ix2]
  refine (inv1 V c t.val t.isLt a b ⟨1024 * (t.val / 8 % 4) + a.val, hr⟩ ⟨1280 * (t.val / 32) + b.val, hv⟩ rfl rfl).trans ?_
  unfold g1
  exact Finset.sum_congr rfl fun k _ => if_pos (by have := k.isLt; omega)

/-- An entry of the result array is in point `t`'s block iff each coordinate is in the block's range. -/
theorem mem_blk1 (t : Fin cfg1.N) (i : S4096x32000.Idx) :
    i ∈ ((cfg1.win 3).blk t).view.set ↔ ∀ a : Fin 2, win1_3.index t a * S1024x1280.size a ≤ (i a).val
      ∧ (i a).val < win1_3.index t a * S1024x1280.size a + S1024x1280.size a := by
  show i ∈ ((View.whole main_v5).slice (win1_3.rect t)).set ↔ _
  rw [View.set_slice_whole, Rect.mem_set_unit]
  exact Iff.rfl

/-- Every entry is in the block of a point that writes back: `(r, v)` in that of `(v / 1280, r / 1024, 7)`. -/
theorem cover1 (i : S4096x32000.Idx) :
    ∃ t : Fin cfg1.N, (cfg1.win 3).flush t = true ∧ i ∈ ((cfg1.win 3).blk t).view.set := by
  have hi0 : (i 0).val < 4096 := idx2_lt0 i
  have hi1 : (i 1).val < 32000 := idx2_lt1 i
  have hN : cfg1.N = 800 := N_1
  let t : Fin cfg1.N := ⟨32 * ((i 1).val / 1280) + 8 * ((i 0).val / 1024) + 7, by rw [hN]; omega⟩
  obtain ⟨-, -, -, -, -, -, -, -, -, e0, e1⟩ := idx_facts1 t
  have e0' : win1_3.index t (0 : Fin 2) = (32 * ((i 1).val / 1280) + 8 * ((i 0).val / 1024) + 7) / 8 % 4 := e0
  have e1' : win1_3.index t (1 : Fin 2) = (32 * ((i 1).val / 1280) + 8 * ((i 0).val / 1024) + 7) / 32 := e1
  refine ⟨t, (flush1_3 t).mpr (show (32 * ((i 1).val / 1280) + 8 * ((i 0).val / 1024) + 7) % 8 = 7 by omega), ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1280 ≤ (i 1).val ∧ (i 1).val < win1_3.index t (1 : Fin 2) * 1280 + 1280; omega

/-- The result array after the launch. -/
theorem final1 (c : Dev nD) : (dat1 V c).arrAt 3 cfg1.N = G1 (V c main_v2) (V c main_v3) (V c main_v4) :=
  (dat1 V c).arrAt_eq_of_cover 3 (G1 (V c main_v2) (V c main_v3) (V c main_v4)) (fun t hf => flushed1_eq V c t hf) cover1

end Cert.KernelIdeal.Val

end
-- ==== Proof.Spec.lean ====
import Idealize.ShloMosaic.PureOps.Ideal
import Idealize.ShloMosaic.PureOps.Ideal.Laws
import Idealize.ShloMosaic.Lib.ValueIdx

/-!
# What both programs compute, index by index, over the extended reals

For an activation matrix `x` (4096 × 1024), two weight matrices `Wq`, `Wk` (1024 × 256) and a vector `idx` of 4096
words: the rows of `x` are projected by either weight matrix; the score of query row `r` against key row `k` is the
inner product of the two projections, scaled by the float 2⁻⁸ (the word `0x3B800000`, which both programs carry); the
causal score keeps it where the key is not after the query and is zero elsewhere; and entry `(r, v)` of the result is
the sum of the causal scores of row `r` over the keys `k` whose word `idx k` is the slot number `v`.
-/

noncomputable section

open scoped BigOperators

namespace Cert.Spec

open Idealize.ShloMosaic

/-- Row `r` of `x` against column `d` of a weight matrix. -/
def proj (x : Fin 4096 → Fin 1024 → EReal) (W : Fin 1024 → Fin 256 → EReal) (r : Fin 4096) (d : Fin 256) : EReal :=
  ∑ c : Fin 1024, x r c * W c d

/-- The scaled score of query row `r` against key row `k`. -/
def score (x : Fin 4096 → Fin 1024 → EReal) (Wq Wk : Fin 1024 → Fin 256 → EReal) (r k : Fin 4096) : EReal :=
  (∑ d : Fin 256, proj x Wq r d * proj x Wk k d) * Ideal.ofBits .f32 0x3B800000#32

/-- The causal score: the score where the key is not after the query, zero elsewhere. -/
def causal (x : Fin 4096 → Fin 1024 → EReal) (Wq Wk : Fin 1024 → Fin 256 → EReal) (r k : Fin 4096) : EReal :=
  if k.val ≤ r.val then score x Wq Wk r k else 0

/-- Entry `(r, v)` of the result: the causal scores of row `r` summed over the keys whose word names slot `v`. -/
def out (x : Fin 4096 → Fin 1024 → EReal) (idx : Fin 4096 → BitVec 32) (Wq Wk : Fin 1024 → Fin 256 → EReal)
    (r : Fin 4096) (v : Fin 32000) : EReal :=
  ∑ k : Fin 4096, causal x Wq Wk r k * (if idx k = BitVec.ofNat 32 v.val then 1 else 0)

/-- The same sum with the slot test outside the product. -/
theorem out_eq_sum_ite (x : Fin 4096 → Fin 1024 → EReal) (idx : Fin 4096 → BitVec 32) (Wq Wk : Fin 1024 → Fin 256 → EReal)
    (r : Fin 4096) (v : Fin 32000) :
    out x idx Wq Wk r v = ∑ k : Fin 4096, if idx k = BitVec.ofNat 32 v.val then causal x Wq Wk r k else 0 := by
  unfold out
  refine Finset.sum_congr rfl fun k _ => ?_
  split <;> simp

end Cert.Spec

end
-- ==== Proof.KernelIdeal.ValAll.lean ====
import proofs.«415133_j62843961475103_2_alg».proof.Proof.KernelIdeal.Launch
import proofs.«415133_j62843961475103_2_alg».proof.Proof.KernelIdeal.Val0
import proofs.«415133_j62843961475103_2_alg».proof.Proof.KernelIdeal.Val1
import proofs.«415133_j62843961475103_2_alg».proof.Proof.Spec
import Idealize.ShloMosaic.Lib.StableHlo.Run
import Idealize.ShloMosaic.Lib.Pipeline.Value
import Idealize.ShloMosaic.Lib.ValueIdx

/-!
# The kernel program's result, entry by entry

The host concatenates the two weight matrices side by side; the first launch multiplies the activations by that; the
host cuts the product back into its left half (the query projection) and its right half (the key projection) and
reshapes the slot words into a column; the second launch sums the causal scores into the slots. So the left half's
entry `(r, d)` is row `r` of the activations against column `d` of `Wq`, the right half's against `Wk`, and entry
`(r, v)` of the result is the specification's.
-/

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The arguments as plain functions of their coordinates -/

abbrev xF (c : Dev nD) : Fin 4096 → Fin 1024 → EReal := fun r cc => m ((c : Thread nD τ).loc main_arg0) (ix2 r cc)
abbrev idxF (c : Dev nD) : Fin 4096 → BitVec 32 := fun k => m ((c : Thread nD τ).loc main_arg1) (ix1 k)
abbrev wqF (c : Dev nD) : Fin 1024 → Fin 256 → EReal := fun cc d => m ((c : Thread nD τ).loc main_arg2) (ix2 cc d)
abbrev wkF (c : Dev nD) : Fin 1024 → Fin 256 → EReal := fun cc d => m ((c : Thread nD τ).loc main_arg3) (ix2 cc d)
/-- The first launch's second operand, the two weight matrices side by side, likewise. -/
abbrev wcatF (c : Dev nD) : Fin 1024 → Fin 512 → EReal := fun cc d => Gen.V1 m c main_v0 (ix2 cc d)

/-! ## The host stretches -/

/-- The activations reach the first launch as launched. -/
theorem V1_arg0 (c : Dev nD) : Gen.V1 m c main_arg0 = m ((c : Thread nD τ).loc main_arg0) :=
  Gen.V1_of m c main_arg0 (by decide)

/-- The first launch's second operand is the two weight matrices side by side. -/
theorem V1_v0 (c : Dev nD) : (Gen.V1 m c main_v0 : S1024x512.Idx → EReal)
    = concatenate S1024x512 1 [⟨S1024x256, m ((c : Thread nD τ).loc main_arg2)⟩, ⟨S1024x256, m ((c : Thread nD τ).loc main_arg3)⟩] concatenates_S1024x256_S1024x256_S1024x512_d1 := by
  show StableHlo.after hostOps0 (Gen.V0 m c) (Proc.devRef .tc main_v0) = _
  after_results

/-- After the first launch its result array holds what the launch left, -/
theorem W2_v1 (c : Dev nD) : W2 m c main_v1 = X1 m c :=
  Function.update_self (β := fun b : DevRef τ sig => Buf (Elt Ideal) ((c : Thread nD τ).1, b)) _ _ _

/-- and the slot words are as launched. -/
theorem W2_arg1 (c : Dev nD) : W2 m c main_arg1 = m ((c : Thread nD τ).loc main_arg1) :=
  (Function.update_of_ne (β := fun b : DevRef τ sig => Buf (Elt Ideal) ((c : Thread nD τ).1, b))
    (StableHlo.devRef_ne_of_ne (by decide) : (Proc.devRef .tc main_arg1 : DevRef τ sig) ≠ Proc.devRef .tc main_v1) _ _).trans
    (Gen.V1_of m c main_arg1 (by decide))

/-- The query projection is the left half of the first launch's product, -/
theorem W3_v2 (c : Dev nD) : (W3 m c main_v2 : S4096x256.Idx → EReal)
    = extractStridedSlice S4096x256 ![0, 0] (X1 m c) slices_S4096x512_S4096x256_0_0 := by
  show StableHlo.after hostOps1 (W2 m c) (Proc.devRef .tc main_v2) = _
  after_results
  rw [W2_v1]

/-- the key projection its right half, -/
theorem W3_v3 (c : Dev nD) : (W3 m c main_v3 : S4096x256.Idx → EReal)
    = extractStridedSlice S4096x256 ![0, 256] (X1 m c) slices_S4096x512_S4096x256_0_256 := by
  show StableHlo.after hostOps1 (W2 m c) (Proc.devRef .tc main_v3) = _
  after_results
  rw [W2_v1]

/-- and the column of slot words holds word `k` in row `k`. -/
theorem W3_v4 (c : Dev nD) (k : Fin 4096) : (W3 m c main_v4 : S4096x1.Idx → BitVec 32) (ix2 k (0 : Fin 1)) = idxF m c k := by
  show StableHlo.after hostOps1 (W2 m c) (Proc.devRef .tc main_v4) _ = _
  after_results
  show shapeCast S4096x1 (W2 m c (Proc.devRef .tc main_arg1)) shapeCasts_S4096_S4096x1 (ix2 k (0 : Fin 1)) = _
  rw [W2_arg1]
  exact shapeCast_apply _ _ (ix2 k (0 : Fin 1)) (ix1 k) (by
    rw [Shape.rowMajor_val_one, Shape.rowMajor_val_two]
    show k.val = k.val * 1 + 0
    omega)

/-! ## The first launch's product, entry by entry -/

/-- Column `d` of the concatenation is column `d` of `Wq` in the left half, -/
theorem wcat_left (c : Dev nD) (cc : Fin 1024) (d : Fin 256) (h : d.val < 512) :
    wcatF m c cc (⟨d.val, h⟩ : Fin 512) = wqF m c cc d := by
  show (Gen.V1 m c main_v0 : S1024x512.Idx → EReal) (ix2 cc (⟨d.val, h⟩ : Fin 512)) = _
  rw [V1_v0]
  exact concatenate_pair_apply_left (t := S1024x512) (s₁ := S1024x256) (s₂ := S1024x256) 1 _ _ _ _ rfl (ix2 cc d)
    (fun b => by match b with | ⟨0, _⟩ => rfl | ⟨1, _⟩ => rfl)

/-- and column `d` of `Wk` in the right half. -/
theorem wcat_right (c : Dev nD) (cc : Fin 1024) (d : Fin 256) (h : 256 + d.val < 512) :
    wcatF m c cc (⟨256 + d.val, h⟩ : Fin 512) = wkF m c cc d := by
  show (Gen.V1 m c main_v0 : S1024x512.Idx → EReal) (ix2 cc (⟨256 + d.val, h⟩ : Fin 512)) = _
  rw [V1_v0]
  exact concatenate_pair_apply_right (t := S1024x512) (s₁ := S1024x256) (s₂ := S1024x256) 1 _ _ _ _ rfl rfl (ix2 cc d)
    (fun b hb => by match b with | ⟨0, _⟩ => rfl | ⟨1, _⟩ => exact absurd rfl hb)
    (by show d.val + 256 = 256 + d.val; omega)

/-- What the first launch leaves: the product of the activations with the concatenated weights. -/
theorem X1_eq (c : Dev nD) : X1 m c = G0 (m ((c : Thread nD τ).loc main_arg0)) (Gen.V1 m c main_v0) := by
  unfold X1
  rw [final0 (VR1 m) c]
  show G0 (Gen.V1 m c main_arg0) (Gen.V1 m c main_v0) = _
  rw [V1_arg0]

/-- The query projection's entry `(r, d)`: row `r` of the activations against column `d` of `Wq`. -/
theorem q_apply (c : Dev nD) (r : Fin 4096) (d : Fin 256) :
    (W3 m c main_v2 : S4096x256.Idx → EReal) (ix2 r d) = Cert.Spec.proj (xF m c) (wqF m c) r d := by
  have hd : d.val < 512 := by have := d.isLt; omega
  rw [W3_v2, extractStridedSlice_apply _ _ _ (ix2 r d) (ix2 r (⟨d.val, hd⟩ : Fin 512))
    (fun a => by match a with | ⟨0, _⟩ => show r.val = 0 + r.val; omega | ⟨1, _⟩ => show d.val = 0 + d.val; omega),
    X1_eq, G0_ix2]
  unfold g0 Cert.Spec.proj
  show (∑ cc : Fin 1024, xF m c r cc * wcatF m c cc (⟨d.val, hd⟩ : Fin 512))
    = ∑ cc : Fin 1024, xF m c r cc * wqF m c cc d
  exact Finset.sum_congr rfl fun cc _ => by rw [wcat_left m c cc d hd]

/-- The key projection's entry `(k, d)`: row `k` of the activations against column `d` of `Wk`. -/
theorem k_apply (c : Dev nD) (k : Fin 4096) (d : Fin 256) :
    (W3 m c main_v3 : S4096x256.Idx → EReal) (ix2 k d) = Cert.Spec.proj (xF m c) (wkF m c) k d := by
  have hd : 256 + d.val < 512 := by have := d.isLt; omega
  rw [W3_v3, extractStridedSlice_apply _ _ _ (ix2 k d) (ix2 k (⟨256 + d.val, hd⟩ : Fin 512))
    (fun a => by match a with | ⟨0, _⟩ => show k.val = 0 + k.val; omega | ⟨1, _⟩ => show 256 + d.val = 256 + d.val; rfl),
    X1_eq, G0_ix2]
  unfold g0 Cert.Spec.proj
  show (∑ cc : Fin 1024, xF m c k cc * wcatF m c cc (⟨256 + d.val, hd⟩ : Fin 512))
    = ∑ cc : Fin 1024, xF m c k cc * wkF m c cc d
  exact Finset.sum_congr rfl fun cc _ => by rw [wcat_right m c cc d hd]

/-! ## The result -/

/-- Entry `(r, v)` of what the second launch leaves in the result array is the specification's. -/
theorem X5_apply (c : Dev nD) (r : Fin 4096) (v : Fin 32000) :
    X5 m c (ix2 r v) = Cert.Spec.out (xF m c) (idxF m c) (wqF m c) (wkF m c) r v := by
  unfold X5
  rw [final1 (VR3 m) c]
  show G1 (W3 m c main_v2) (W3 m c main_v3) (W3 m c main_v4) (ix2 r v) = _
  rw [G1_ix2]
  unfold g1 Cert.Spec.out
  refine Finset.sum_congr rfl fun k _ => ?_
  unfold term1 Cert.Spec.causal Cert.Spec.score
  rw [W3_v4]
  congr 2
  refine congrArg (· * _) (Finset.sum_congr rfl fun d _ => ?_)
  rw [q_apply, k_apply]

end Cert.KernelIdeal.Val

end
-- ==== Proof.RefValue.lean ====
import proofs.«415133_j62843961475103_2_alg».proof.Proof.Gen.ReferenceIdeal
import proofs.«415133_j62843961475103_2_alg».proof.Proof.Gen.ReferenceIdeal.Run
import proofs.«415133_j62843961475103_2_alg».proof.Proof.Gen.ReferenceIdeal.Read
import proofs.«415133_j62843961475103_2_alg».proof.Proof.Spec
import Idealize.ShloMosaic.Lib.ValueIdx
import Idealize.ShloMosaic.Lib.StableHlo.Predicate
import Idealize.ShloMosaic.PureOps.Ideal.Laws

/-!
# The reference's result, entry by entry

The reference multiplies the two projections of `x`, scales by 2⁻⁸, keeps the lower triangle, and scatter-adds the
columns of that matrix into the slots the words of `idx` name: a column whose word is no slot number is dropped.
Entry `(r, v)` of what it returns is therefore the sum of the causal scores of row `r` over the keys whose word is `v`.

The scatter is read first. Its update index `(a, b)` has its window start at the word of key `a` (read signed) on the
slot axis and at `0` on the column axis, and its window coordinate `0` on the slot axis and `b` on the column axis; so it
lands at `(v, r)` exactly when the word of key `a` is the word of `v` and `b = r`, and a word outside `[0, 32000)` lands
nowhere. The scatter of a zero array at `(v, r)` is then the sum over the keys `a` whose word is `v` of the update at
`(a, r)`. The update at `(a, r)` is the masked score at `(r, a)`; the mask's bit compares the row number with the column
number as signed words below 4096, which is the comparison of the numbers.
-/

noncomputable section

open scoped BigOperators

namespace Cert.ReferenceIdeal.RefValue

open Cert.ReferenceIdeal Idealize.ShloMosaic Idealize.ShloMosaic.ValueIdx

/-! ## The scatter's result index -/

/-- On the slot axis the window of update `(a, b)` starts at the word of key `a`, read signed. -/
theorem start_zero (idx : IVec S4096x1 32) (a b : Fin 4096) :
    scatter_S32000x4096_S4096x1_S4096x4096_1_0_0_1.start (ix2 a b) idx 0 = (idx (ix2 a 0)).toInt := by
  unfold ScatterDims.start
  rw [dif_pos (show (0 : Fin S32000x4096.rank) ∈ scatter_S32000x4096_S4096x1_S4096x4096_1_0_0_1.scatterDimsToOperandDims by decide)]
  congr 2
  funext c
  refine Fin.ext ?_
  match c with
  | ⟨0, _⟩ => rfl
  | ⟨1, _⟩ => rfl

/-- On the column axis the window starts at `0`: the start index has no component there. -/
theorem start_one (idx : IVec S4096x1 32) (a b : Fin 4096) :
    scatter_S32000x4096_S4096x1_S4096x4096_1_0_0_1.start (ix2 a b) idx 1 = 0 := by
  unfold ScatterDims.start
  rw [dif_neg (show ¬ (1 : Fin S32000x4096.rank) ∈ scatter_S32000x4096_S4096x1_S4096x4096_1_0_0_1.scatterDimsToOperandDims by decide)]

/-- The slot axis is an inserted axis: the window coordinate there is `0`. -/
theorem window_zero (a b : Fin 4096) :
    scatter_S32000x4096_S4096x1_S4096x4096_1_0_0_1.window (ix2 a b) 0 = 0 := by
  unfold ScatterDims.window
  rw [dif_neg (show ¬ (0 : Fin S32000x4096.rank) ∈ scatter_S32000x4096_S4096x1_S4096x4096_1_0_0_1.sKept by decide)]

/-- On the column axis the window coordinate of update `(a, b)` is `b`. -/
theorem window_one (a b : Fin 4096) :
    scatter_S32000x4096_S4096x1_S4096x4096_1_0_0_1.window (ix2 a b) 1 = b.val := by
  unfold ScatterDims.window
  rw [dif_pos (show (1 : Fin S32000x4096.rank) ∈ scatter_S32000x4096_S4096x1_S4096x4096_1_0_0_1.sKept by decide)]
  rfl

/-- A 32-bit word read signed is the slot number `v` exactly when it is the word of `v`. -/
theorem toInt_eq_slot_iff (w : BitVec 32) (v : Fin 32000) : w.toInt = (v.val : Int) ↔ w = BitVec.ofNat 32 v.val := by
  have hv := v.isLt
  constructor
  · intro h
    apply BitVec.eq_of_toNat_eq
    rw [BitVec.toNat_ofNat]
    have hw := w.isLt
    rw [BitVec.toInt_eq_toNat_cond] at h
    split at h <;> omega
  · intro h
    rw [h]
    exact StableHlo.Predicate.toInt_ofNat_small v.val (by omega)

/-- Update `(a, b)` lands at `(v, r)` exactly when the word of key `a` is the word of `v` and `b = r`; in particular a word
    outside `[0, 32000)` lands nowhere. -/
theorem resultIdx_eq_some_iff (idx : IVec S4096x1 32) (a b : Fin 4096) (v : Fin 32000) (r : Fin 4096) :
    scatter_S32000x4096_S4096x1_S4096x4096_1_0_0_1.resultIdx? (ix2 a b) idx = some (ix2 v r)
      ↔ (idx (ix2 a 0) = BitVec.ofNat 32 v.val ∧ b = r) := by
  rw [← toInt_eq_slot_iff]
  have hv := v.isLt
  have hb := b.isLt
  unfold ScatterDims.resultIdx?
  split
  · rename_i h
    rw [Option.some.injEq]
    have h0 := h 0
    rw [start_zero, window_zero] at h0
    constructor
    · intro hf
      have e0 : (scatter_S32000x4096_S4096x1_S4096x4096_1_0_0_1.start (ix2 a b) idx 0
          + scatter_S32000x4096_S4096x1_S4096x4096_1_0_0_1.window (ix2 a b) 0).toNat = v.val := congrArg Fin.val (congrFun hf 0)
      have e1 : (scatter_S32000x4096_S4096x1_S4096x4096_1_0_0_1.start (ix2 a b) idx 1
          + scatter_S32000x4096_S4096x1_S4096x4096_1_0_0_1.window (ix2 a b) 1).toNat = r.val := congrArg Fin.val (congrFun hf 1)
      rw [start_zero, window_zero] at e0
      rw [start_one, window_one] at e1
      exact ⟨by omega, Fin.ext (by omega)⟩
    · rintro ⟨e0, rfl⟩
      funext c
      refine Fin.ext ?_
      match c with
      | ⟨0, _⟩ =>
        show (scatter_S32000x4096_S4096x1_S4096x4096_1_0_0_1.start (ix2 a b) idx 0
          + scatter_S32000x4096_S4096x1_S4096x4096_1_0_0_1.window (ix2 a b) 0).toNat = v.val
        rw [start_zero, window_zero]; omega
      | ⟨1, _⟩ =>
        show (scatter_S32000x4096_S4096x1_S4096x4096_1_0_0_1.start (ix2 a b) idx 1
          + scatter_S32000x4096_S4096x1_S4096x4096_1_0_0_1.window (ix2 a b) 1).toNat = b.val
        rw [start_one, window_one]; omega
  · rename_i h
    constructor
    · intro hf; exact absurd hf (by simp)
    · rintro ⟨e0, rfl⟩
      exfalso
      apply h
      intro c
      match c with
      | ⟨0, _⟩ =>
        show 0 ≤ scatter_S32000x4096_S4096x1_S4096x4096_1_0_0_1.start (ix2 a b) idx 0
          + scatter_S32000x4096_S4096x1_S4096x4096_1_0_0_1.window (ix2 a b) 0 ∧
          scatter_S32000x4096_S4096x1_S4096x4096_1_0_0_1.start (ix2 a b) idx 0
          + scatter_S32000x4096_S4096x1_S4096x4096_1_0_0_1.window (ix2 a b) 0 < (32000 : Nat)
        rw [start_zero, window_zero]; omega
      | ⟨1, _⟩ =>
        show 0 ≤ scatter_S32000x4096_S4096x1_S4096x4096_1_0_0_1.start (ix2 a b) idx 1
          + scatter_S32000x4096_S4096x1_S4096x4096_1_0_0_1.window (ix2 a b) 1 ∧
          scatter_S32000x4096_S4096x1_S4096x4096_1_0_0_1.start (ix2 a b) idx 1
          + scatter_S32000x4096_S4096x1_S4096x4096_1_0_0_1.window (ix2 a b) 1 < (4096 : Nat)
        rw [start_one, window_one]; omega

/-- The scatter-add read at slot `v`, column `r`: the operand there plus the updates of the keys whose word is `v`. -/
theorem scatterAdd_apply (x : FVec Ideal S32000x4096 .f32) (idx : IVec S4096x1 32)
    (upd : FVec Ideal S4096x4096 .f32) (v : Fin 32000) (r : Fin 4096) :
    Host.scatterAdd scatter_S32000x4096_S4096x1_S4096x4096_1_0_0_1 x idx upd (ix2 v r)
      = x (ix2 v r) + ∑ a : Fin 4096, if idx (ix2 a 0) = BitVec.ofNat 32 v.val then upd (ix2 a r) else 0 := by
  unfold Host.scatterAdd
  rw [Ideal.hostScatterAdd_def]
  unfold Ideal.hostScatterAdd
  congr 1
  rw [Finset.sum_filter, sum_idx2]
  refine Finset.sum_congr rfl fun a _ => ?_
  simp only [resultIdx_eq_some_iff]
  by_cases hA : idx (ix2 a 0) = BitVec.ofNat 32 v.val
  · simp only [hA, true_and, if_true]
    rw [Finset.sum_ite_eq' Finset.univ r (fun b => upd (ix2 a b)), if_pos (Finset.mem_univ r)]
  · simp only [hA, false_and, if_false]
    exact Finset.sum_const_zero

/-! ## The triangle mask, the score, the causal score -/

/-- The triangle's bit at `(r, a)`: set exactly when key `a` is not after query `r`. -/
theorem tri_bit (r a : Fin 4096) :
    IntOp.cmpi .sge (IntOp.addi (BitVec.ofNat 32 r.val) 0#32) (BitVec.ofNat 32 a.val) = 1#1 ↔ a.val ≤ r.val := by
  have hr := r.isLt
  have ha := a.isLt
  have e : IntOp.addi (BitVec.ofNat 32 r.val) 0#32 = BitVec.ofNat 32 r.val := by
    unfold IntOp.addi; exact BitVec.add_zero _
  have er : (BitVec.ofNat 32 r.val).toNat = r.val := by rw [BitVec.toNat_ofNat]; exact Nat.mod_eq_of_lt (by omega)
  have ea : (BitVec.ofNat 32 a.val).toNat = a.val := by rw [BitVec.toNat_ofNat]; exact Nat.mod_eq_of_lt (by omega)
  rw [e, StableHlo.Predicate.sge_iff_toNat (by rw [er]; omega) (by rw [ea]; omega), er, ea]

/-- The mask at `(r, a)`: the bit `1` where key `a` is not after query `r`, the bit `0` elsewhere. -/
theorem mask_apply (r a : Fin 4096) :
    Read.val_main_v7 (F := Ideal) (ix2 r a) = if a.val ≤ r.val then 1#1 else 0#1 := by
  rw [Read.val_main_v7_apply, Read.val_main_call0_v4_apply, Read.val_main_call0_v2_apply, Read.val_main_call0_v0_apply,
    Read.val_main_call0_v1_apply, Read.val_main_call0_c_apply, Read.val_main_call0_v3_apply, Read.val_main_v6_apply,
    Read.val_main_c_apply, Read.val_main_call0_v5_apply, Read.val_main_call0_c_0_apply]
  show Scalar.select (IntOp.cmpi .sge (IntOp.addi (BitVec.ofNat 32 r.val) 0#32) (BitVec.ofNat 32 a.val)) 1#1 0#1 = _
  by_cases h : a.val ≤ r.val
  · rw [if_pos h, (tri_bit r a).mpr h, select_one]
  · rw [if_neg h, eq_zero_of_ne_one (fun hb => h ((tri_bit r a).mp hb)), select_zero]

/-- The scaled score the reference forms at `(r, a)` is the specification's. -/
theorem score_apply (x0 : (⟨S4096x1024, .f32⟩ : BufTy).Contents (Elt Ideal)) (x2 x3 : (⟨S1024x256, .f32⟩ : BufTy).Contents (Elt Ideal))
    (r a : Fin 4096) :
    Read.val_main_v5 (F := Ideal) x0 x2 x3 (ix2 r a)
      = Cert.Spec.score (fun r c => x0 (ix2 r c)) (fun c d => x2 (ix2 c d)) (fun c d => x3 (ix2 c d)) r a := by
  rw [Read.val_main_v5_apply, Read.val_main_v3_apply, Read.val_main_v4_apply, Read.val_main_cst_apply, Ideal.mulf_def,
    Ideal.ofBits_def]
  unfold Cert.Spec.score
  congr 1
  refine Finset.sum_congr rfl fun k _ => ?_
  have el : Read.lidx_main_v3 (ix2 r a) k = ix2 r k := by
    funext c; match c with | ⟨0, _⟩ => rfl | ⟨1, _⟩ => rfl
  have er : Read.idx_main_v2 (Read.ridx_main_v3 (ix2 r a) k) = ix2 a k := by
    funext c; match c with | ⟨0, _⟩ => rfl | ⟨1, _⟩ => rfl
  rw [el, Read.val_main_v2_apply, er, Read.val_main_v0_apply, Read.val_main_v1_apply]
  unfold Cert.Spec.proj
  congr 1
  · refine Finset.sum_congr rfl fun c _ => ?_
    have e1 : Read.lidx_main_v0 (ix2 r k) c = ix2 r c := by
      funext c'; match c' with | ⟨0, _⟩ => rfl | ⟨1, _⟩ => rfl
    have e2 : Read.ridx_main_v0 (ix2 r k) c = ix2 c k := by
      funext c'; match c' with | ⟨0, _⟩ => rfl | ⟨1, _⟩ => rfl
    rw [e1, e2]
  · refine Finset.sum_congr rfl fun c _ => ?_
    have e1 : Read.lidx_main_v1 (ix2 a k) c = ix2 a c := by
      funext c'; match c' with | ⟨0, _⟩ => rfl | ⟨1, _⟩ => rfl
    have e2 : Read.ridx_main_v1 (ix2 a k) c = ix2 c k := by
      funext c'; match c' with | ⟨0, _⟩ => rfl | ⟨1, _⟩ => rfl
    rw [e1, e2]

/-- The masked score at `(r, a)` is the specification's causal score. -/
theorem causal_apply (x0 : (⟨S4096x1024, .f32⟩ : BufTy).Contents (Elt Ideal)) (x2 x3 : (⟨S1024x256, .f32⟩ : BufTy).Contents (Elt Ideal))
    (r a : Fin 4096) :
    Read.val_main_v8 (F := Ideal) x0 x2 x3 (ix2 r a)
      = Cert.Spec.causal (fun r c => x0 (ix2 r c)) (fun c d => x2 (ix2 c d)) (fun c d => x3 (ix2 c d)) r a := by
  rw [Read.val_main_v8_apply, mask_apply, score_apply, Read.val_main_call1_v0_apply, Read.val_main_cst_0_apply, Ideal.ofBits_def,
    Ideal.ofBits_zero_f32]
  unfold Cert.Spec.causal
  by_cases h : a.val ≤ r.val
  · rw [if_pos h, if_pos h, select_one]
  · rw [if_neg h, if_neg h, select_zero]

/-- Entry `(r, v)` of the reference's result is the specification's. -/
theorem ref_apply (x0 : (⟨S4096x1024, .f32⟩ : BufTy).Contents (Elt Ideal)) (x1 : (⟨S4096, .i32⟩ : BufTy).Contents (Elt Ideal))
    (x2 x3 : (⟨S1024x256, .f32⟩ : BufTy).Contents (Elt Ideal)) (r : Fin 4096) (v : Fin 32000) :
    Cert.ReferenceIdeal.Read.val_main_v13 (F := Ideal) x0 x1 x2 x3 (ix2 r v)
      = Cert.Spec.out (fun r c => x0 (ix2 r c)) (fun k => x1 (ix1 k)) (fun c d => x2 (ix2 c d)) (fun c d => x3 (ix2 c d)) r v := by
  have e13 : Read.idx_main_v13 (ix2 r v) = ix2 v r := by
    funext c; match c with | ⟨0, _⟩ => rfl | ⟨1, _⟩ => rfl
  rw [Read.val_main_v13_apply, e13]
  unfold Read.val_main_v12
  rw [scatterAdd_apply, Read.val_main_v10_apply, Read.val_main_cst_1_apply, Ideal.ofBits_def, Ideal.ofBits_zero_f32, zero_add,
    Cert.Spec.out_eq_sum_ite]
  refine Finset.sum_congr rfl fun a _ => ?_
  have e11 : Read.idx_main_v11 (ix2 a 0) = ix1 a := by
    funext c; match c with | ⟨0, _⟩ => rfl
  have e9 : Read.idx_main_v9 (ix2 a r) = ix2 r a := by
    funext c; match c with | ⟨0, _⟩ => rfl | ⟨1, _⟩ => rfl
  rw [Read.val_main_v11_apply, e11, Read.val_main_v9_apply, e9, causal_apply]

end Cert.ReferenceIdeal.RefValue

end
-- ==== Proof.lean ====
/-
  Two programs over activations `x` (4096 × 1024), slot words `idx` (4096) and weight matrices `Wq`, `Wk` (1024 × 256).
  The kernel program concatenates the weights, multiplies the activations by the concatenation in one launch of eight
  row tiles, cuts the product into the query and key projections, and in a second launch over 25 × 4 × 8 points
  accumulates, per block of 1024 query rows by 1280 slots, the products of the causal scaled scores of a tile of 512
  keys with the 0/1 matrix "key's word = slot number", skipping the key tiles wholly after the query rows.
  The reference multiplies the two projections, scales by 2⁻⁸, keeps the lower triangle and scatter-adds the columns
  into the slots the words name, dropping a word that is no slot number.
  Over the extended reals both results are, at `(r, v)`, the sum over the keys `k ≤ r` whose word is `v` of the scaled
  inner product of the projections of rows `r` and `k` (Proof/Spec.lean): a product with the 0/1 matrix adds the term
  or zero, a skipped tile holds only zero terms, and sums of extended reals may be regrouped freely. No finiteness of the
  inputs is used. The kernel program's frame is its run through the two launches (Proof/KernelIdeal/Launch.lean and, at
  the word-level instance, Proof/Kernel/Launch.lean); the reference's is its run with the result dropped; the ideal pass
  rewrote nothing, so the idealization claim is trivial.
-/
import proofs.«415133_j62843961475103_2_alg».proof.Defs
import proofs.«415133_j62843961475103_2_alg».proof.Proof.Gen.Kernel
import proofs.«415133_j62843961475103_2_alg».proof.Proof.Gen.KernelIdeal
import proofs.«415133_j62843961475103_2_alg».proof.Proof.Gen.ReferenceIdeal
import proofs.«415133_j62843961475103_2_alg».proof.Proof.Gen.ReferenceIdeal.Run
import proofs.«415133_j62843961475103_2_alg».proof.Proof.Gen.ReferenceIdeal.Read
import proofs.«415133_j62843961475103_2_alg».proof.Proof.Gen.Pre_finite_inputs
import proofs.«415133_j62843961475103_2_alg».proof.Proof.Kernel.Launch
import proofs.«415133_j62843961475103_2_alg».proof.Proof.KernelIdeal.Launch
import proofs.«415133_j62843961475103_2_alg».proof.Proof.KernelIdeal.ValAll
import proofs.«415133_j62843961475103_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs and leaves its arguments as launched. -/
theorem frame_k : Cert.frame_Kernel := fun m ρ _ => Cert.Kernel.Fr.frame (F := Bits) m ρ

/-- So does its reading over the extended reals. -/
theorem frame_ki : Cert.frame_KernelIdeal := fun m ρ _ => Cert.KernelIdeal.Fr.frame (F := Ideal) m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array holding, at `(r, v)`, the specification's sum: the kernel program's is
    what its second launch's write-backs leave, and the reference's composed term at agreeing arguments is the same
    array, entry by entry. -/
theorem algebraic : Cert.algebraic_KernelIdeal_ReferenceIdeal := by
  intro m ρ m' ρ' _ hagree
  refine ⟨fun c => Cert.KernelIdeal.Fr.X5 (F := Ideal) m c, Cert.KernelIdeal.Fr.run_main (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v13_eq (F := Ideal) _ _ _ _).trans ?_
  funext i
  obtain ⟨r, v, rfl⟩ : ∃ (r : Fin 4096) (v : Fin 32000), i = ix2 r v := ⟨i 0, i 1, eq_ix2 i⟩
  rw [Cert.ReferenceIdeal.RefValue.ref_apply, (hagree c).1, (hagree c).2.1, (hagree c).2.2.1, (hagree c).2.2.2]
  exact (Cert.KernelIdeal.Val.X5_apply m c r v).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
